-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v41)) (v1 : (c : Dev Cert.KernelIdeal.nD) → Buf (Elt Ideal) ((c.tc : Thread Cert.KernelIdeal.nD Cert.KernelIdeal.τ).loc Cert.KernelIdeal.main_v25_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_v25_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S625000x128 : Shape := ⟨2, ![625000, 128]⟩
abbrev S2x625000 : Shape := ⟨2, ![2, 625000]⟩
abbrev S256x128 : Shape := ⟨2, ![256, 128]⟩
abbrev S128 : Shape := ⟨1, ![128]⟩
abbrev S384x128 : Shape := ⟨2, ![384, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S625000x128 : S_.BroadcastsInDim S625000x128 (![] : Fin 0 → Fin S625000x128.rank)
  reducesTo_S625000x128_S_d0_1 : S625000x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S384x128 : S_.BroadcastsInDim S384x128 (![] : Fin 0 → Fin S384x128.rank)
  reducesTo_S384x128_S_d0_1 : S384x128.ReducesTo [0, 1] S_

variable [Facts]

def fn_part2 {F : FTy → Type} [FloatOps F] (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg5 : FVec F S256x128 .f32) (main_arg6 : FVec F S128 .f32) (main_arg7 : FVec F S384x128 .f32) (main_arg8 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S384x128 .f32 := Host.absf main_arg7
  let main_cst_10 : FVec F S_ .f32 := constant S_ .f32 0x7F800000#32
  let main_v30 : FVec F S384x128 .f32 := broadcastInDim S384x128 ![] bcast_S_S384x128 main_cst_10
  let main_v31 : IVec S384x128 1 := cmpf .olt main_v29 main_v30
  let main_c_11 : IVec S_ 1 := constantI S_ 1 1#1
  let main_v32 : IVec S_ 1 := (fun x v => Host.reduce IntOp.andi x v reducesTo_S384x128_S_d0_1 h_S_) main_v31 main_c_11
  let main_v33 : IVec S_ 1 := andi main_v28 main_v32
  fn_part2 (F := F) main_arg8 main_v33

def fn {F : FTy → Type} [FloatOps F] (main_arg0 : FVec F S100000x128 .f32) (main_arg1 : FVec F S625000x128 .f32) (main_arg2 : IVec S2x625000 32) (main_arg3 : FVec F S256x128 .f32) (main_arg4 : FVec F S128 .f32) (main_arg5 : FVec F S256x128 .f32) (main_arg6 : FVec F S128 .f32) (main_arg7 : FVec F S384x128 .f32) (main_arg8 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S625000x128 .f32 := Host.absf main_arg1
  let main_cst_0 : FVec F S_ .f32 := constant S_ .f32 0x7F800000#32
  let main_v5 : FVec F S625000x128 .f32 := broadcastInDim S625000x128 ![] bcast_S_S625000x128 main_cst_0
  let main_v6 : IVec S625000x128 1 := cmpf .olt main_v4 main_v5
  let main_c_1 : IVec S_ 1 := constantI S_ 1 1#1
  let main_v7 : IVec S_ 1 := (fun x v => Host.reduce IntOp.andi x v reducesTo_S625000x128_S_d0_1 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S100000x128 : Shape := ⟨2, ![100000, 128]⟩
abbrev S625000x128 : Shape := ⟨2, ![625000, 128]⟩
abbrev S2x625000 : Shape := ⟨2, ![2, 625000]⟩
abbrev S256x128 : Shape := ⟨2, ![256, 128]⟩
abbrev S128 : Shape := ⟨1, ![128]⟩
abbrev S384x128 : Shape := ⟨2, ![384, 128]⟩
abbrev S1x625000 : Shape := ⟨2, ![1, 625000]⟩
abbrev S625000 : Shape := ⟨1, ![625000]⟩
abbrev S_ : Shape := ⟨0, ![]⟩
abbrev S625000x1 : Shape := ⟨2, ![625000, 1]⟩
abbrev S128x128 : Shape := ⟨2, ![128, 128]⟩
abbrev S1x128 : Shape := ⟨2, ![1, 128]⟩
abbrev S5000x128 : Shape := ⟨2, ![5000, 128]⟩
abbrev S100000 : Shape := ⟨1, ![100000]⟩
abbrev S100000x1 : Shape := ⟨2, ![100000, 1]⟩

abbrev nBuf : Space → Nat
  | .hbm => 60
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S625000x128, .f32⟩
  | .hbm, ⟨2, _⟩ => ⟨S2x625000, .i32⟩
  | .hbm, ⟨3, _⟩ => ⟨S256x128, .f32⟩
  | .hbm, ⟨4, _⟩ => ⟨S128, .f32⟩
  | .hbm, ⟨5, _⟩ => ⟨S256x128, .f32⟩
  | .hbm, ⟨6, _⟩ => ⟨S128, .f32⟩
  | .hbm, ⟨7, _⟩ => ⟨S384x128, .f32⟩
  | .hbm, ⟨8, _⟩ => ⟨S128, .f32⟩
  | .hbm, ⟨9, _⟩ => ⟨S1x625000, .i32⟩
  | .hbm, ⟨10, _⟩ => ⟨S625000, .i32⟩
  | .hbm, ⟨11, _⟩ => ⟨S1x625000, .i32⟩
  | .hbm, ⟨12, _⟩ => ⟨S625000, .i32⟩
  | .hbm, ⟨13, _⟩ => ⟨S_, .i32⟩
  | .hbm, ⟨14, _⟩ => ⟨S625000, .i32⟩
  | .hbm, ⟨15, _⟩ => ⟨S625000, .i1⟩
  | .hbm, ⟨16, _⟩ => ⟨S_, .i32⟩
  | .hbm, ⟨17, _⟩ => ⟨S625000, .i32⟩
  | .hbm, ⟨18, _⟩ => ⟨S625000, .i32⟩
  | .hbm, ⟨19, _⟩ => ⟨S625000, .i32⟩
  | .hbm, ⟨20, _⟩ => ⟨S625000x1, .i32⟩
  | .hbm, ⟨21, _⟩ => ⟨S625000x128, .f32⟩
  | .hbm, ⟨22, _⟩ => ⟨S_, .i32⟩
  | .hbm, ⟨23, _⟩ => ⟨S625000, .i32⟩
  | .hbm, ⟨24, _⟩ => ⟨S625000, .i1⟩
  | .hbm, ⟨25, _⟩ => ⟨S_, .i32⟩
  | .hbm, ⟨26, _⟩ => ⟨S625000, .i32⟩
  | .hbm, ⟨27, _⟩ => ⟨S625000, .i32⟩
  | .hbm, ⟨28, _⟩ => ⟨S625000, .i32⟩
  | .hbm, ⟨29, _⟩ => ⟨S625000x1, .i32⟩
  | .hbm, ⟨30, _⟩ => ⟨S625000x128, .f32⟩
  | .hbm, ⟨31, _⟩ => ⟨S128x128, .f32⟩
  | .hbm, ⟨32, _⟩ => ⟨S128x128, .f32⟩
  | .hbm, ⟨33, _⟩ => ⟨S128x128, .f32⟩
  | .hbm, ⟨34, _⟩ => ⟨S128x128, .f32⟩
  | .hbm, ⟨35, _⟩ => ⟨S128x128, .f32⟩
  | .hbm, ⟨36, _⟩ => ⟨S1x128, .f32⟩
  | .hbm, ⟨37, _⟩ => ⟨S1x128, .f32⟩
  | .hbm, ⟨38, _⟩ => ⟨S625000x128, .f32⟩
  | .hbm, ⟨39, _⟩ => ⟨S625000x128, .f32⟩
  | .hbm, ⟨40, _⟩ => ⟨S_, .f32⟩
  | .hbm, ⟨41, _⟩ => ⟨S100000x128, .f32⟩
  | .hbm, ⟨42, _⟩ => ⟨S625000x1, .i32⟩
  | .hbm, ⟨43, _⟩ => ⟨S100000x128, .f32⟩
  | .hbm, ⟨44, _⟩ => ⟨S_, .f32⟩
  | .hbm, ⟨45, _⟩ => ⟨S625000, .f32⟩
  | .hbm, ⟨46, _⟩ => ⟨S_, .f32⟩
  | .hbm, ⟨47, _⟩ => ⟨S100000, .f32⟩
  | .hbm, ⟨48, _⟩ => ⟨S625000x1, .i32⟩
  | .hbm, ⟨49, _⟩ => ⟨S100000, .f32⟩
  | .hbm, ⟨50, _⟩ => ⟨S100000x1, .f32⟩
  | .hbm, ⟨51, _⟩ => ⟨S_, .f32⟩
  | .hbm, ⟨52, _⟩ => ⟨S100000x1, .f32⟩
  | .hbm, ⟨53, _⟩ => ⟨S100000x1, .f32⟩
  | .hbm, ⟨54, _⟩ => ⟨S100000x128, .f32⟩
  | .hbm, ⟨55, _⟩ => ⟨S100000x128, .f32⟩
  | .hbm, ⟨56, _⟩ => ⟨S128x128, .f32⟩
  | .hbm, ⟨57, _⟩ => ⟨S128x128, .f32⟩
  | .hbm, ⟨58, _⟩ => ⟨S1x128, .f32⟩
  | .hbm, ⟨59, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S1x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S128x128, .f32⟩
  | .local _ .vmem, ⟨22, _⟩ => ⟨S128x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25_0 : Ref sig .tc := ⟨.hbm, 38, rfl⟩
abbrev main_v25_1 : Ref sig .tc := ⟨.hbm, 39, rfl⟩
abbrev main_cst : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_cst_4 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg5_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc1_sem0_0 : DmaSem sig := 17
abbrev cc1_sem0_1 : DmaSem sig := 18
abbrev cc1_sem1_0 : DmaSem sig := 19
abbrev cc1_sem1_1 : DmaSem sig := 20
abbrev cc1_sem2_0 : DmaSem sig := 21
abbrev cc1_sem3_0 : DmaSem sig := 22
abbrev cc1_sem4_0 : DmaSem sig := 23
abbrev cc1_sem5_0 : DmaSem sig := 24
abbrev cc1_sem5_1 : DmaSem sig := 25

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S5000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S5000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S625000_S625000x1_0 : S625000.BroadcastsInDim S625000x1 (![0] : Fin 1 → Fin S625000x1.rank)
  slices_S256x128_S128x128_0_0 : S256x128.Slices ![0, 0] S128x128
  slices_S256x128_S128x128_128_0 : S256x128.Slices ![128, 0] S128x128
  slices_S384x128_S128x128_0_0 : S384x128.Slices ![0, 0] S128x128
  slices_S384x128_S128x128_128_0 : S384x128.Slices ![128, 0] S128x128
  slices_S384x128_S128x128_256_0 : S384x128.Slices ![256, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  gather_S100000x128_S625000x1_S625000x128_1_0_n_n_0_1_1128_wf : GatherDims.WF S100000x128 S625000x1 S625000x128 [1] [0] [] [0] [] 1 ![1, 128]
  dot_S5000x128_S128x128_S5000x128_1_0_0_1_n_n_wf : DotDims.WF S5000x128 S128x128 S5000x128 [1] [0] [0] [1] [] []
  scatter_S100000x128_S625000x1_S625000x128_1_0_0_1_wf : ScatterDims.WF S100000x128 S625000x1 S625000x128 [1] [0] [0] 1
  scatter_S100000_S625000x1_S625000_n_0_0_1_wf : ScatterDims.WF S100000 S625000x1 S625000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S625000x128.size a
  hwx0_0 : ∀ i : grid0.Coords, EltTy.bits .f32 = 32 ∨ (Rect.block (s := S625000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S625000x128.size a
  hwx0_1 : ∀ i : grid0.Coords, EltTy.bits .f32 = 32 ∨ (Rect.block (s := S625000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S625000x128.size a
  hwx0_2 : ∀ i : grid0.Coords, EltTy.bits .f32 = 32 ∨ (Rect.block (s := S625000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S5000x128.size a ≤ S625000x128.size a
  hwx0_10 : ∀ i : grid0.Coords, EltTy.bits .f32 = 32 ∨ (Rect.block (s := S625000x128) S5000x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S5000x128.size a ≤ S625000x128.size a
  hwx0_11 : ∀ i : grid0.Coords, EltTy.bits .f32 = 32 ∨ (Rect.block (s := S625000x128) S5000x128.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def gather_S100000x128_S625000x1_S625000x128_1_0_n_n_0_1_1128 : GatherDims S100000x128 S625000x1 S625000x128 where
  offsetDims := [1]
  collapsedSliceDims := [0]
  operandBatchingDims := []
  startIndicesBatchingDims := []
  startIndexMap := [0]
  indexVectorDim := 1
  sliceSizes := ![1, 128]
  wf := gather_S100000x128_S625000x1_S625000x128_1_0_n_n_0_1_1128_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S100000x128_S625000x1_S625000x128_1_0_0_1 : ScatterDims S100000x128 S625000x1 S625000x128 where
  updateWindowDims := [1]
  insertedWindowDims := [0]
  scatterDimsToOperandDims := [0]
  indexVectorDim := 1
  wf := scatter_S100000x128_S625000x1_S625000x128_1_0_0_1_wf
def scatter_S100000_S625000x1_S625000_n_0_0_1 : ScatterDims S100000 S625000x1 S625000 where
  updateWindowDims := []
  insertedWindowDims := [0]
  scatterDimsToOperandDims := [0]
  indexVectorDim := 1
  wf := scatter_S100000_S625000x1_S625000_n_0_0_1_wf

abbrev win0_0 : Pipeline.Window sig grid0 :=
  Pipeline.Window.ofSpec (Memref.whole main_v10) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v21) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v22) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v24) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v25_0) S5000x128.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v25_1) S5000x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v38) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S625000x128 : Shape := ⟨2, ![625000, 128]⟩
abbrev S2x625000 : Shape := ⟨2, ![2, 625000]⟩
abbrev S256x128 : Shape := ⟨2, ![256, 128]⟩
abbrev S128 : Shape := ⟨1, ![128]⟩
abbrev S384x128 : Shape := ⟨2, ![384, 128]⟩
abbrev S1x625000 : Shape := ⟨2, ![1, 625000]⟩
abbrev S625000 : Shape := ⟨1, ![625000]⟩
abbrev S_ : Shape := ⟨0, ![]⟩
abbrev S625000x1 : Shape := ⟨2, ![625000, 1]⟩
abbrev S625000x256 : Shape := ⟨2, ![625000, 256]⟩
abbrev S1x128 : Shape := ⟨2, ![1, 128]⟩
abbrev S100000 : Shape := ⟨1, ![100000]⟩
abbrev S100000x1 : Shape := ⟨2, ![100000, 1]⟩
abbrev S100000x256 : Shape := ⟨2, ![100000, 256]⟩
abbrev S625000x384 : Shape := ⟨2, ![625000, 384]⟩

abbrev nBuf : Space → Nat
  | .hbm => 71
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S625000x128, .f32⟩
  | .hbm, ⟨2, _⟩ => ⟨S2x625000, .i32⟩
  | .hbm, ⟨3, _⟩ => ⟨S256x128, .f32⟩
  | .hbm, ⟨4, _⟩ => ⟨S128, .f32⟩
  | .hbm, ⟨5, _⟩ => ⟨S256x128, .f32⟩
  | .hbm, ⟨6, _⟩ => ⟨S128, .f32⟩
  | .hbm, ⟨7, _⟩ => ⟨S384x128, .f32⟩
  | .hbm, ⟨8, _⟩ => ⟨S128, .f32⟩
  | .hbm, ⟨9, _⟩ => ⟨S1x625000, .i32⟩
  | .hbm, ⟨10, _⟩ => ⟨S625000, .i32⟩
  | .hbm, ⟨11, _⟩ => ⟨S1x625000, .i32⟩
  | .hbm, ⟨12, _⟩ => ⟨S625000, .i32⟩
  | .hbm, ⟨13, _⟩ => ⟨S_, .i32⟩
  | .hbm, ⟨14, _⟩ => ⟨S625000, .i32⟩
  | .hbm, ⟨15, _⟩ => ⟨S625000, .i1⟩
  | .hbm, ⟨16, _⟩ => ⟨S_, .i32⟩
  | .hbm, ⟨17, _⟩ => ⟨S625000, .i32⟩
  | .hbm, ⟨18, _⟩ => ⟨S625000, .i32⟩
  | .hbm, ⟨19, _⟩ => ⟨S625000, .i32⟩
  | .hbm, ⟨20, _⟩ => ⟨S625000x1, .i32⟩
  | .hbm, ⟨21, _⟩ => ⟨S625000x128, .f32⟩
  | .hbm, ⟨22, _⟩ => ⟨S_, .i32⟩
  | .hbm, ⟨23, _⟩ => ⟨S625000, .i32⟩
  | .hbm, ⟨24, _⟩ => ⟨S625000, .i1⟩
  | .hbm, ⟨25, _⟩ => ⟨S_, .i32⟩
  | .hbm, ⟨26, _⟩ => ⟨S625000, .i32⟩
  | .hbm, ⟨27, _⟩ => ⟨S625000, .i32⟩
  | .hbm, ⟨28, _⟩ => ⟨S625000, .i32⟩
  | .hbm, ⟨29, _⟩ => ⟨S625000x1, .i32⟩
  | .hbm, ⟨30, _⟩ => ⟨S625000x128, .f32⟩
  | .hbm, ⟨31, _⟩ => ⟨S625000x256, .f32⟩
  | .hbm, ⟨32, _⟩ => ⟨S625000x128, .f32⟩
  | .hbm, ⟨33, _⟩ => ⟨S1x128, .f32⟩
  | .hbm, ⟨34, _⟩ => ⟨S625000x128, .f32⟩
  | .hbm, ⟨35, _⟩ => ⟨S625000x128, .f32⟩
  | .hbm, ⟨36, _⟩ => ⟨S_, .f32⟩
  | .hbm, ⟨37, _⟩ => ⟨S625000x128, .f32⟩
  | .hbm, ⟨38, _⟩ => ⟨S625000x128, .f32⟩
  | .hbm, ⟨39, _⟩ => ⟨S_, .f32⟩
  | .hbm, ⟨40, _⟩ => ⟨S100000x128, .f32⟩
  | .hbm, ⟨41, _⟩ => ⟨S625000x1, .i32⟩
  | .hbm, ⟨42, _⟩ => ⟨S100000x128, .f32⟩
  | .hbm, ⟨43, _⟩ => ⟨S_, .f32⟩
  | .hbm, ⟨44, _⟩ => ⟨S625000, .f32⟩
  | .hbm, ⟨45, _⟩ => ⟨S_, .f32⟩
  | .hbm, ⟨46, _⟩ => ⟨S100000, .f32⟩
  | .hbm, ⟨47, _⟩ => ⟨S625000x1, .i32⟩
  | .hbm, ⟨48, _⟩ => ⟨S100000, .f32⟩
  | .hbm, ⟨49, _⟩ => ⟨S100000x1, .f32⟩
  | .hbm, ⟨50, _⟩ => ⟨S_, .f32⟩
  | .hbm, ⟨51, _⟩ => ⟨S100000x1, .f32⟩
  | .hbm, ⟨52, _⟩ => ⟨S100000x1, .f32⟩
  | .hbm, ⟨53, _⟩ => ⟨S100000x128, .f32⟩
  | .hbm, ⟨54, _⟩ => ⟨S100000x128, .f32⟩
  | .hbm, ⟨55, _⟩ => ⟨S100000x256, .f32⟩
  | .hbm, ⟨56, _⟩ => ⟨S100000x128, .f32⟩
  | .hbm, ⟨57, _⟩ => ⟨S1x128, .f32⟩
  | .hbm, ⟨58, _⟩ => ⟨S100000x128, .f32⟩
  | .hbm, ⟨59, _⟩ => ⟨S100000x128, .f32⟩
  | .hbm, ⟨60, _⟩ => ⟨S_, .f32⟩
  | .hbm, ⟨61, _⟩ => ⟨S100000x128, .f32⟩
  | .hbm, ⟨62, _⟩ => ⟨S100000x128, .f32⟩
  | .hbm, ⟨63, _⟩ => ⟨S625000x384, .f32⟩
  | .hbm, ⟨64, _⟩ => ⟨S625000x128, .f32⟩
  | .hbm, ⟨65, _⟩ => ⟨S1x128, .f32⟩
  | .hbm, ⟨66, _⟩ => ⟨S625000x128, .f32⟩
  | .hbm, ⟨67, _⟩ => ⟨S625000x128, .f32⟩
  | .hbm, ⟨68, _⟩ => ⟨S_, .f32⟩
  | .hbm, ⟨69, _⟩ => ⟨S625000x128, .f32⟩
  | .hbm, ⟨70, _⟩ => ⟨S625000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_call0_cst : Ref sig .tc := ⟨.hbm, 36, rfl⟩
abbrev main_call0_v0 : Ref sig .tc := ⟨.hbm, 37, rfl⟩
abbrev main_v23 : Ref sig .tc := ⟨.hbm, 38, rfl⟩
abbrev main_cst : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_call1_cst : Ref sig .tc := ⟨.hbm, 60, rfl⟩
abbrev main_call1_v0 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call2_cst : Ref sig .tc := ⟨.hbm, 68, rfl⟩
abbrev main_call2_v0 : Ref sig .tc := ⟨.hbm, 69, rfl⟩
abbrev main_v47 : Ref sig .tc := ⟨.hbm, 70, rfl⟩

abbrev nD : Nat := 1
abbrev τ : Topo := Topo.v7x

variable {F : FTy → Type} [FloatOps F]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S625000_S625000x1_0 : S625000.BroadcastsInDim S625000x1 (![0] : Fin 1 → Fin S625000x1.rank)
  concatenates_S625000x128_S625000x128_S625000x256_d1 : Shape.Concatenates [S625000x128, S625000x128] S625000x256 1
  bcast_S128_S1x128_1 : S128.BroadcastsInDim S1x128 (![1] : Fin 1 → Fin S1x128.rank)
  bcast_S1x128_S625000x128_0_1 : S1x128.BroadcastsInDim S625000x128 (![0, 1] : Fin 2 → Fin S625000x128.rank)
  bcast_S_S625000x128 : S_.BroadcastsInDim S625000x128 (![] : Fin 0 → Fin S625000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  concatenates_S100000x128_S100000x128_S100000x256_d1 : Shape.Concatenates [S100000x128, S100000x128] S100000x256 1
  bcast_S1x128_S100000x128_0_1 : S1x128.BroadcastsInDim S100000x128 (![0, 1] : Fin 2 → Fin S100000x128.rank)
  concatenates_S625000x128_S625000x128_S625000x128_S625000x384_d1 : Shape.Concatenates [S625000x128, S625000x128, S625000x128] S625000x384 1
  gather_S100000x128_S625000x1_S625000x128_1_0_n_n_0_1_1128_wf : GatherDims.WF S100000x128 S625000x1 S625000x128 [1] [0] [] [0] [] 1 ![1, 128]
  dot_S625000x256_S256x128_S625000x128_1_0_0_1_n_n_wf : DotDims.WF S625000x256 S256x128 S625000x128 [1] [0] [0] [1] [] []
  scatter_S100000x128_S625000x1_S625000x128_1_0_0_1_wf : ScatterDims.WF S100000x128 S625000x1 S625000x128 [1] [0] [0] 1
  scatter_S100000_S625000x1_S625000_n_0_0_1_wf : ScatterDims.WF S100000 S625000x1 S625000 [] [0] [0] 1
  dot_S100000x256_S256x128_S100000x128_1_0_0_1_n_n_wf : DotDims.WF S100000x256 S256x128 S100000x128 [1] [0] [0] [1] [] []
  dot_S625000x384_S384x128_S625000x128_1_0_0_1_n_n_wf : DotDims.WF S625000x384 S384x128 S625000x128 [1] [0] [0] [1] [] []

variable [Facts₀]

def gather_S100000x128_S625000x1_S625000x128_1_0_n_n_0_1_1128 : GatherDims S100000x128 S625000x1 S625000x128 where
  offsetDims := [1]
  collapsedSliceDims := [0]
  operandBatchingDims := []
  startIndicesBatchingDims := []
  startIndexMap := [0]
  indexVectorDim := 1
  sliceSizes := ![1, 128]
  wf := gather_S100000x128_S625000x1_S625000x128_1_0_n_n_0_1_1128_wf
def dot_S625000x256_S256x128_S625000x128_1_0_0_1_n_n : DotDims S625000x256 S256x128 S625000x128 where
  lhsContracting := [1]
  rhsContracting := [0]
  lhsNonContracting := [0]
  rhsNonContracting := [1]
  lhsBatch := []
  rhsBatch := []
  wf := dot_S625000x256_S256x128_S625000x128_1_0_0_1_n_n_wf
def scatter_S100000x128_S625000x1_S625000x128_1_0_0_1 : ScatterDims S100000x128 S625000x1 S625000x128 where
  updateWindowDims := [1]
  insertedWindowDims := [0]
  scatterDimsToOperandDims := [0]
  indexVectorDim := 1
  wf := scatter_S100000x128_S625000x1_S625000x128_1_0_0_1_wf
def scatter_S100000_S625000x1_S625000_n_0_0_1 : ScatterDims S100000 S625000x1 S625000 where
  updateWindowDims := []
  insertedWindowDims := [0]
  scatterDimsToOperandDims := [0]
  indexVectorDim := 1
  wf := scatter_S100000_S625000x1_S625000_n_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S625000x384_S384x128_S625000x128_1_0_0_1_n_n : DotDims S625000x384 S384x128 S625000x128 where
  lhsContracting := [1]
  rhsContracting := [0]
  lhsNonContracting := [0]
  rhsNonContracting := [1]
  lhsBatch := []
  rhsBatch := []
  wf := dot_S625000x384_S384x128_S625000x128_1_0_0_1_n_n_wf

class Facts : Prop extends Facts₀ where

variable [Facts]
-- ==== Proof.Spec.lean ====
/-
  The mathematics of the three dense layers, free of any program.

  Every dense layer of the message-passing step has one shape: a row `r` of the result, at column `j`, is
  `max (Σ_k a r k · wa k j + Σ_k b r k · wb k j [+ Σ_k c r k · wc k j] + bias j) 0` — the rectified sum of two or three
  128-wide row blocks, each against its own 128 × 128 weight block, plus a bias row. The fused program computes the blocks'
  products one by one and adds them; the plain one lays the row blocks side by side into one row of width 256 or 384 and
  multiplies it with the stacked weights. The two agree because a sum over `Fin (128 + 128)` is the sum over its two
  halves: associativity and commutativity of `+` on the extended reals, nothing more (no distributivity, so no
  finiteness of the entries is used).

  `lin2` / `lin3` are that row map for any number of rows `N`; `lin2_block` / `lin3_block` say that the row map of
  a band of rows is the band of the row map (rows of the result depend only on the same rows of the operands; the
  weight blocks and the bias row are shared by every band).
-/
import Idealize.ShloMosaic.Lib.ValueIdx
import Idealize.ShloMosaic.PureOps.Ideal

noncomputable section

open scoped BigOperators

namespace Cert.Spec

open Idealize.ShloMosaic Idealize.ShloMosaic.ValueIdx

/-- An `n0 × n1` array of extended reals, indexed as the programs index their rank-2 buffers. -/
abbrev Mat (n0 n1 : Nat) : Type := (⟨2, ![n0, n1]⟩ : Shape).Idx → EReal

/-- Two row blocks against two weight blocks, plus the bias row, rectified. -/
def lin2 {N : Nat} (a b : Mat N 128) (wa wb : Mat 128 128) (bias : Mat 1 128) : Mat N 128 :=
  fun i => max ((∑ k : Fin 128, a (ix2 (i 0) k) * wa (ix2 k (i 1)) + ∑ k : Fin 128, b (ix2 (i 0) k) * wb (ix2 k (i 1)))
    + bias (ix2 0 (i 1))) 0

/-- Three row blocks against three weight blocks, plus the bias row, rectified. -/
def lin3 {N : Nat} (a b c : Mat N 128) (wa wb wc : Mat 128 128) (bias : Mat 1 128) : Mat N 128 :=
  fun i => max (((∑ k : Fin 128, a (ix2 (i 0) k) * wa (ix2 k (i 1)) + ∑ k : Fin 128, b (ix2 (i 0) k) * wb (ix2 k (i 1)))
    + ∑ k : Fin 128, c (ix2 (i 0) k) * wc (ix2 k (i 1))) + bias (ix2 0 (i 1))) 0

theorem lin2_apply {N : Nat} (a b : Mat N 128) (wa wb : Mat 128 128) (bias : Mat 1 128) (p : Fin N) (q : Fin 128) :
    lin2 a b wa wb bias (ix2 p q)
      = max ((∑ k : Fin 128, a (ix2 p k) * wa (ix2 k q) + ∑ k : Fin 128, b (ix2 p k) * wb (ix2 k q)) + bias (ix2 0 q)) 0 := rfl

theorem lin3_apply {N : Nat} (a b c : Mat N 128) (wa wb wc : Mat 128 128) (bias : Mat 1 128) (p : Fin N) (q : Fin 128) :
    lin3 a b c wa wb wc bias (ix2 p q)
      = max (((∑ k : Fin 128, a (ix2 p k) * wa (ix2 k q) + ∑ k : Fin 128, b (ix2 p k) * wb (ix2 k q))
          + ∑ k : Fin 128, c (ix2 p k) * wc (ix2 k q)) + bias (ix2 0 q)) 0 := rfl

/-- A sum over 256 terms is the sum over the first 128 plus the sum over the last 128. -/
theorem sum_split2 (f : Fin 256 → EReal) :
    ∑ k : Fin 256, f k = ∑ k : Fin 128, f ⟨k.val, by omega⟩ + ∑ k : Fin 128, f ⟨128 + k.val, by omega⟩ :=
  Fin.sum_univ_add (M := EReal) (a := 128) (b := 128) f

/-- A sum over 384 terms is the sum of its three runs of 128. -/
theorem sum_split3 (f : Fin 384 → EReal) :
    ∑ k : Fin 384, f k = (∑ k : Fin 128, f ⟨k.val, by omega⟩ + ∑ k : Fin 128, f ⟨128 + k.val, by omega⟩)
      + ∑ k : Fin 128, f ⟨256 + k.val, by omega⟩ := by
  have h1 := Fin.sum_univ_add (M := EReal) (a := 256) (b := 128) f
  have h2 := sum_split2 fun k : Fin 256 => f ⟨k.val, by omega⟩
  exact h1.trans (congrArg (· + ∑ k : Fin 128, f ⟨256 + k.val, by omega⟩) h2)

/-- Rows `o … o + n - 1` of the two-block row map are the row map of those rows of the operands. -/
theorem lin2_block {N n : Nat} (o : Nat) (a b : Mat N 128) (a' b' : Mat n 128) (wa wb wa' wb' : Mat 128 128)
    (bias bias' : Mat 1 128) (ho : ∀ p : Fin n, o + p.val < N)
    (ha : ∀ (p : Fin n) (k : Fin 128), a' (ix2 p k) = a (ix2 ⟨o + p.val, ho p⟩ k))
    (hb : ∀ (p : Fin n) (k : Fin 128), b' (ix2 p k) = b (ix2 ⟨o + p.val, ho p⟩ k))
    (hwa : wa' = wa) (hwb : wb' = wb) (hbias : bias' = bias) (p : Fin n) (q : Fin 128) :
    lin2 a' b' wa' wb' bias' (ix2 p q) = lin2 a b wa wb bias (ix2 ⟨o + p.val, ho p⟩ q) := by
  subst hwa hwb hbias
  rw [lin2_apply, lin2_apply]
  simp only [ha, hb]

/-- Rows `o … o + n - 1` of the three-block row map are the row map of those rows of the operands. -/
theorem lin3_block {N n : Nat} (o : Nat) (a b c : Mat N 128) (a' b' c' : Mat n 128) (wa wb wc wa' wb' wc' : Mat 128 128)
    (bias bias' : Mat 1 128) (ho : ∀ p : Fin n, o + p.val < N)
    (ha : ∀ (p : Fin n) (k : Fin 128), a' (ix2 p k) = a (ix2 ⟨o + p.val, ho p⟩ k))
    (hb : ∀ (p : Fin n) (k : Fin 128), b' (ix2 p k) = b (ix2 ⟨o + p.val, ho p⟩ k))
    (hc : ∀ (p : Fin n) (k : Fin 128), c' (ix2 p k) = c (ix2 ⟨o + p.val, ho p⟩ k))
    (hwa : wa' = wa) (hwb : wb' = wb) (hwc : wc' = wc) (hbias : bias' = bias) (p : Fin n) (q : Fin 128) :
    lin3 a' b' c' wa' wb' wc' bias' (ix2 p q) = lin3 a b c wa wb wc bias (ix2 ⟨o + p.val, ho p⟩ q) := by
  subst hwa hwb hwc hbias
  rw [lin3_apply, lin3_apply]
  simp only [ha, hb, hc]

end Cert.Spec

end
-- ==== Proof.BlockOps.lean ====
/-
  One grid point's arithmetic, read at an element.

  Each kernel body loads 5000 rows of its row operands and the whole 128 × 128 weight blocks and bias row, and stores
  `max (x · wx + y · wy [+ z · wz] + bias) 0`. At the ideal values a change of float format is the identity and a
  matrix product into a zero accumulator is the plain sum `Σ_k l (p, k) · r (k, q)`, so each stored value is the
  two- or three-block row map `Spec.lin2` / `Spec.lin3` of the loaded blocks.
-/
import proofs.«173192_j27144193311129_1_alg».proof.Proof.Gen.KernelIdeal.Skeleton
import proofs.«173192_j27144193311129_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Block

open Cert.KernelIdeal Cert.KernelIdeal.Gen Idealize.ShloMosaic Idealize.ShloMosaic.TcCoe Idealize.ShloMosaic.ValueIdx

/-! ## The block product at an element -/

theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Row `p` of the left block against column `q` of the right one: the contraction runs over the 128 shared coordinates. -/
theorem mm_apply {φ₁ φ₂ : FTy} (l : FVec Ideal S5000x128 φ₁) (r : FVec Ideal S128x128 φ₂) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-! ## The operands as loaded: format changes and same-shape casts read through -/

theorem tr_sc_rows (x : Vec Ideal S5000x128 .f32) (i : S5000x128.Idx) :
    (truncf .bf16 (shapeCast S5000x128 x shapeCasts_S5000x128_S5000x128) bitsLt_bf16_f32 : FVec Ideal S5000x128 .bf16) i = x i := by
  rw [truncf_apply, shapeCast_self]
theorem tr_sc_w (x : Vec Ideal S128x128 .f32) (i : S128x128.Idx) :
    (truncf .bf16 (shapeCast S128x128 x shapeCasts_S128x128_S128x128) bitsLt_bf16_f32 : FVec Ideal S128x128 .bf16) i = x i := by
  rw [truncf_apply, shapeCast_self]

/-- The bias row, cast to its own shape and broadcast over the rows, read at `(p, q)`. -/
theorem bias_apply (x : Vec Ideal S1x128 .f32) (p : Fin 5000) (q : Fin 128) :
    broadcastTo S5000x128 (shapeCast S1x128 x shapeCasts_S1x128_S1x128) broadcasts_S1x128_S5000x128 (ix2 p q) = x (ix2 (0 : Fin 1) q) := by
  rw [shapeCast_self]
  exact broadcastTo_1b_ab_apply x broadcasts_S1x128_S5000x128 p q

/-- The rectifier's threshold: the zero word is the real zero. -/
theorem zero_apply (i : S5000x128.Idx) :
    (broadcast S5000x128 (Scalar.ofBits (F := Ideal) .f32 0x00000000#32) : FVec Ideal S5000x128 .f32) i = (0 : EReal) :=
  Ideal.ofBits_zero_f32

/-! ## The three stored values -/

/-- The message block: source-node rows and edge rows against the two halves of the message weights. -/
theorem pay_msg (x0 x2 : Vec Ideal S5000x128 .f32) (x3 x4 : Vec Ideal S128x128 .f32) (x5 : Vec Ideal S1x128 .f32) :
    k0_pay7 (F := Ideal) x0 x2 x3 x4 x5 = Spec.lin2 x0 x2 x3 x4 x5 := by
  funext j
  obtain ⟨p, q, rfl⟩ : ∃ (p : Fin 5000) (q : Fin 128), j = ix2 p q := ⟨j 0, j 1, eq_ix2 j⟩
  rw [Spec.lin2_apply]
  unfold k0_pay7 k0_pay2 k0_pay4
  refine congrArg₂ max (congrArg₂ (· + ·) (congrArg₂ (· + ·) ?_ ?_) (bias_apply x5 p q)) (zero_apply _)
  · exact (mm_apply _ _ p q).trans (Finset.sum_congr rfl fun k _ => by rw [tr_sc_rows, tr_sc_w])
  · exact (mm_apply _ _ p q).trans (Finset.sum_congr rfl fun k _ => by rw [truncf_apply, tr_sc_w])

/-- The new edge block: edge rows, source-node rows and target-node rows against the three thirds of the edge weights. -/
theorem pay_enew (x0 x1 x2 : Vec Ideal S5000x128 .f32) (x6 x7 x8 : Vec Ideal S128x128 .f32) (x9 : Vec Ideal S1x128 .f32) :
    k0_pay1 (F := Ideal) (k0_pay2 x0) (k0_pay3 x1) (k0_pay5 x7) (k0_pay6 x8) (k0_pay8 x2 x6) x9
      = Spec.lin3 x2 x0 x1 x6 x7 x8 x9 := by
  funext j
  obtain ⟨p, q, rfl⟩ : ∃ (p : Fin 5000) (q : Fin 128), j = ix2 p q := ⟨j 0, j 1, eq_ix2 j⟩
  rw [Spec.lin3_apply]
  unfold k0_pay1 k0_pay2 k0_pay3 k0_pay5 k0_pay6 k0_pay8 k0_pay4
  refine congrArg₂ max (congrArg₂ (· + ·) (congrArg₂ (· + ·) (congrArg₂ (· + ·) ?_ ?_) ?_) (bias_apply x9 p q)) (zero_apply _)
  · exact (mm_apply _ _ p q).trans (Finset.sum_congr rfl fun k _ => by rw [truncf_apply, tr_sc_w])
  · exact (mm_apply _ _ p q).trans (Finset.sum_congr rfl fun k _ => by rw [tr_sc_rows, tr_sc_w])
  · exact (mm_apply _ _ p q).trans (Finset.sum_congr rfl fun k _ => by rw [tr_sc_rows, tr_sc_w])

/-- The new node block: node rows and aggregated-message rows against the two halves of the node weights. -/
theorem pay_hnew (x0 x1 : Vec Ideal S5000x128 .f32) (x2 x3 : Vec Ideal S128x128 .f32) (x4 : Vec Ideal S1x128 .f32) :
    k1_pay1 (F := Ideal) x0 x1 x2 x3 x4 = Spec.lin2 x0 x1 x2 x3 x4 := by
  funext j
  obtain ⟨p, q, rfl⟩ : ∃ (p : Fin 5000) (q : Fin 128), j = ix2 p q := ⟨j 0, j 1, eq_ix2 j⟩
  rw [Spec.lin2_apply]
  unfold k1_pay1
  refine congrArg₂ max (congrArg₂ (· + ·) (congrArg₂ (· + ·) ?_ ?_) (bias_apply x4 p q)) (zero_apply _)
  · exact (mm_apply _ _ p q).trans (Finset.sum_congr rfl fun k _ => by rw [truncf_apply, tr_sc_w])
  · exact (mm_apply _ _ p q).trans (Finset.sum_congr rfl fun k _ => by rw [tr_sc_rows, tr_sc_w])

end Cert.KernelIdeal.Block

end
-- ==== Proof.Region0.lean ====
/-
  The edge region, whole: what its two result arrays hold when it ends, for any contents `V` of its operand arrays at entry.

  The region walks 125 grid points; point `t` reads rows `5000 t … 5000 t + 4999` of the three per-edge row arrays and the
  whole of each weight block and bias row, and writes back the same rows of both results. The rows of the two- and
  three-block row maps depend only on the same rows of the operands, so what point `t` writes back is band `t` of ONE
  array, `Spec.lin2 …` / `Spec.lin3 …` of the whole operand arrays; the 125 bands tile the result arrays (row `r` lies in
  band `r / 5000`), so that array is what each result holds at the end.
-/
import proofs.«173192_j27144193311129_1_alg».proof.Proof.Gen.KernelIdeal.Frame
import proofs.«173192_j27144193311129_1_alg».proof.Proof.BlockOps
import Idealize.ShloMosaic.Lib.Pipeline.Value
import Idealize.ShloMosaic.Lib.ValueIdx

set_option maxRecDepth 16384

noncomputable section

open scoped BigOperators

namespace Cert.KernelIdeal.Region0

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

theorem t_lt (t : Fin cfg0.N) : t.val < 125 := lt_of_lt_of_eq t.isLt N_0

/-- The printed index maps over the grid: the per-edge row windows sit at block `(t, 0)`, the weight and bias windows at `(0, 0)`. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0) :=
  (by decide +kernel : ∀ t : Fin grid0.N, _)

/-! ## The input blocks, read where they lie in their arrays -/

/-- Source-node rows: row `p` of point `t`'s block is row `5000 t + p` of the array. -/
theorem rd0 (c : Dev nD) (t : Fin cfg0.N) (p : Fin 5000) (k : Fin 128) (h : t.val * 5000 + p.val < 625000) :
    iblk0 V c 0 t (ix2 p k : S5000x128.Idx) = V c main_v10 (ix2 ⟨t.val * 5000 + p.val, h⟩ k : S625000x128.Idx) := by
  show V c main_v10 (((cfg0.win 0).blk t).view.emb (ix2 p k : S5000x128.Idx)) = _
  refine congrArg (V c main_v10) (funext fun a => Fin.ext ?_)
  obtain ⟨⟨e0, e1⟩, -⟩ := idx_facts t
  match a with
  | ⟨0, _⟩ => show win0_0.index t (0 : Fin 2) * 5000 + 1 * p.val = t.val * 5000 + p.val; rw [e0]; omega
  | ⟨1, _⟩ => show win0_0.index t (1 : Fin 2) * 128 + 1 * k.val = k.val; rw [e1]; omega

/-- Target-node rows. -/
theorem rd1 (c : Dev nD) (t : Fin cfg0.N) (p : Fin 5000) (k : Fin 128) (h : t.val * 5000 + p.val < 625000) :
    iblk0 V c 1 t (ix2 p k : S5000x128.Idx) = V c main_v17 (ix2 ⟨t.val * 5000 + p.val, h⟩ k : S625000x128.Idx) := by
  show V c main_v17 (((cfg0.win 1).blk t).view.emb (ix2 p k : S5000x128.Idx)) = _
  refine congrArg (V c main_v17) (funext fun a => Fin.ext ?_)
  obtain ⟨-, ⟨e0, e1⟩, -⟩ := idx_facts t
  match a with
  | ⟨0, _⟩ => show win0_1.index t (0 : Fin 2) * 5000 + 1 * p.val = t.val * 5000 + p.val; rw [e0]; omega
  | ⟨1, _⟩ => show win0_1.index t (1 : Fin 2) * 128 + 1 * k.val = k.val; rw [e1]; omega

/-- Edge rows. -/
theorem rd2 (c : Dev nD) (t : Fin cfg0.N) (p : Fin 5000) (k : Fin 128) (h : t.val * 5000 + p.val < 625000) :
    iblk0 V c 2 t (ix2 p k : S5000x128.Idx) = V c main_arg1 (ix2 ⟨t.val * 5000 + p.val, h⟩ k : S625000x128.Idx) := by
  show V c main_arg1 (((cfg0.win 2).blk t).view.emb (ix2 p k : S5000x128.Idx)) = _
  refine congrArg (V c main_arg1) (funext fun a => Fin.ext ?_)
  obtain ⟨-, -, ⟨e0, e1⟩, -⟩ := idx_facts t
  match a with
  | ⟨0, _⟩ => show win0_2.index t (0 : Fin 2) * 5000 + 1 * p.val = t.val * 5000 + p.val; rw [e0]; omega
  | ⟨1, _⟩ => show win0_2.index t (1 : Fin 2) * 128 + 1 * k.val = k.val; rw [e1]; omega

/-- A weight block or bias row is its whole array at every point. -/
theorem w3 (c : Dev nD) (t : Fin cfg0.N) : iblk0 V c 3 t = V c main_v18 := by
  funext y
  show V c main_v18 (((cfg0.win 3).blk t).view.emb y) = V c main_v18 y
  refine congrArg (V c main_v18) (funext fun a => Fin.ext ?_)
  obtain ⟨-, -, -, ⟨e0, e1⟩, -⟩ := idx_facts t
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega
theorem w4 (c : Dev nD) (t : Fin cfg0.N) : iblk0 V c 4 t = V c main_v19 := by
  funext y
  show V c main_v19 (((cfg0.win 4).blk t).view.emb y) = V c main_v19 y
  refine congrArg (V c main_v19) (funext fun a => Fin.ext ?_)
  obtain ⟨-, -, -, -, ⟨e0, e1⟩, -⟩ := idx_facts t
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega
theorem w5 (c : Dev nD) (t : Fin cfg0.N) : iblk0 V c 5 t = V c main_v23 := by
  funext y
  show V c main_v23 (((cfg0.win 5).blk t).view.emb y) = V c main_v23 y
  refine congrArg (V c main_v23) (funext fun a => Fin.ext ?_)
  obtain ⟨-, -, -, -, -, ⟨e0, e1⟩, -⟩ := idx_facts t
  match a with
  | ⟨0, _⟩ => show win0_5.index t (0 : Fin 2) * 1 + 1 * (y 0).val = (y 0).val; rw [e0]; omega
  | ⟨1, _⟩ => show win0_5.index t (1 : Fin 2) * 128 + 1 * (y 1).val = (y 1).val; rw [e1]; omega
theorem w6 (c : Dev nD) (t : Fin cfg0.N) : iblk0 V c 6 t = V c main_v20 := by
  funext y
  show V c main_v20 (((cfg0.win 6).blk t).view.emb y) = V c main_v20 y
  refine congrArg (V c main_v20) (funext fun a => Fin.ext ?_)
  obtain ⟨-, -, -, -, -, -, ⟨e0, e1⟩, -⟩ := idx_facts t
  match a with
  | ⟨0, _⟩ => show win0_6.index t (0 : Fin 2) * 128 + 1 * (y 0).val = (y 0).val; rw [e0]; omega
  | ⟨1, _⟩ => show win0_6.index t (1 : Fin 2) * 128 + 1 * (y 1).val = (y 1).val; rw [e1]; omega
theorem w7 (c : Dev nD) (t : Fin cfg0.N) : iblk0 V c 7 t = V c main_v21 := by
  funext y
  show V c main_v21 (((cfg0.win 7).blk t).view.emb y) = V c main_v21 y
  refine congrArg (V c main_v21) (funext fun a => Fin.ext ?_)
  obtain ⟨-, -, -, -, -, -, -, ⟨e0, e1⟩, -⟩ := idx_facts t
  match a with
  | ⟨0, _⟩ => show win0_7.index t (0 : Fin 2) * 128 + 1 * (y 0).val = (y 0).val; rw [e0]; omega
  | ⟨1, _⟩ => show win0_7.index t (1 : Fin 2) * 128 + 1 * (y 1).val = (y 1).val; rw [e1]; omega
theorem w8 (c : Dev nD) (t : Fin cfg0.N) : iblk0 V c 8 t = V c main_v22 := by
  funext y
  show V c main_v22 (((cfg0.win 8).blk t).view.emb y) = V c main_v22 y
  refine congrArg (V c main_v22) (funext fun a => Fin.ext ?_)
  obtain ⟨-, -, -, -, -, -, -, -, ⟨e0, e1⟩, -⟩ := idx_facts t
  match a with
  | ⟨0, _⟩ => show win0_8.index t (0 : Fin 2) * 128 + 1 * (y 0).val = (y 0).val; rw [e0]; omega
  | ⟨1, _⟩ => show win0_8.index t (1 : Fin 2) * 128 + 1 * (y 1).val = (y 1).val; rw [e1]; omega
theorem w9 (c : Dev nD) (t : Fin cfg0.N) : iblk0 V c 9 t = V c main_v24 := by
  funext y
  show V c main_v24 (((cfg0.win 9).blk t).view.emb y) = V c main_v24 y
  refine congrArg (V c main_v24) (funext fun a => Fin.ext ?_)
  obtain ⟨-, -, -, -, -, -, -, -, -, ⟨e0, e1⟩, -⟩ := idx_facts t
  match a with
  | ⟨0, _⟩ => show win0_9.index t (0 : Fin 2) * 1 + 1 * (y 0).val = (y 0).val; rw [e0]; omega
  | ⟨1, _⟩ => show win0_9.index t (1 : Fin 2) * 128 + 1 * (y 1).val = (y 1).val; rw [e1]; omega

/-! ## The message array (window 10) -/

/-- The whole message array: the two-block row map of the gathered source rows and the edge rows. -/
abbrev msgArr (c : Dev nD) : S625000x128.Idx → EReal :=
  Spec.lin2 (V c main_v10) (V c main_arg1) (V c main_v18) (V c main_v19) (V c main_v23)

/-- Where point `t`'s block element `(p, q)` lies in the message array. -/
theorem emb10 (t : Fin cfg0.N) (p : Fin 5000) (q : Fin 128) (h : t.val * 5000 + p.val < 625000) :
    ((cfg0.win 10).blk t).view.emb (ix2 p q : S5000x128.Idx) = (ix2 ⟨t.val * 5000 + p.val, h⟩ q : S625000x128.Idx) := by
  refine funext fun a => Fin.ext ?_
  obtain ⟨-, -, -, -, -, -, -, -, -, -, ⟨e0, e1⟩, -⟩ := idx_facts t
  match a with
  | ⟨0, _⟩ => show win0_10.index t (0 : Fin 2) * 5000 + 1 * p.val = t.val * 5000 + p.val; rw [e0]; omega
  | ⟨1, _⟩ => show win0_10.index t (1 : Fin 2) * 128 + 1 * q.val = q.val; rw [e1]; omega

/-- What point `t` writes back to the message array is band `t` of `msgArr`. -/
theorem flushed10_eq (c : Dev nD) (t : Fin cfg0.N) :
    (dat0 V c).flushed 10 t = ((cfg0.win 10).blk t).view.read (Elt Ideal) (msgArr V c) := by
  show (cfg0.win 10).cut (grid0.coords t) ((dat0 V c).after 10 t) = _
  rw [after0_10]
  unfold out0_10
  rw [View.canon_unit_zero hz]
  simp only [View.ld_unit_zero (S := S5000x128) hz, View.ld_unit_zero (S := S128x128) hz, View.ld_unit_zero (S := S1x128) hz]
  rw [Block.pay_msg]
  funext j
  obtain ⟨p, q, rfl⟩ : ∃ (p : Fin 5000) (q : Fin 128), j = (ix2 p q : S5000x128.Idx) :=
    ⟨j 0, j 1, eq_ix2 (n0 := 5000) (n1 := 128) j⟩
  have hb : ∀ p : Fin 5000, t.val * 5000 + p.val < 625000 := fun p => by have := t_lt t; have := p.isLt; omega
  show Spec.lin2 (iblk0 V c 0 t) (iblk0 V c 2 t) (iblk0 V c 3 t) (iblk0 V c 4 t) (iblk0 V c 5 t) (ix2 p q : S5000x128.Idx)
    = msgArr V c (((cfg0.win 10).blk t).view.emb (ix2 p q : S5000x128.Idx))
  rw [emb10 t p q (hb p)]
  exact Spec.lin2_block (t.val * 5000) (V c main_v10) (V c main_arg1) (iblk0 V c 0 t) (iblk0 V c 2 t)
    (V c main_v18) (V c main_v19) (iblk0 V c 3 t) (iblk0 V c 4 t) (V c main_v23) (iblk0 V c 5 t) hb
    (fun p k => rd0 V c t p k (hb p)) (fun p k => rd2 V c t p k (hb p)) (w3 V c t) (w4 V c t) (w5 V c t) p q

/-- An index of the message array is in point `t`'s band iff each coordinate is in the band's range. -/
theorem mem_blk10 (t : Fin cfg0.N) (i : S625000x128.Idx) :
    i ∈ ((cfg0.win 10).blk t).view.set ↔ ∀ a : Fin 2, win0_10.index t a * S5000x128.size a ≤ (i a).val ∧ (i a).val < win0_10.index t a * S5000x128.size a + S5000x128.size a := by
  show i ∈ ((View.whole main_v25_0).slice (win0_10.rect t)).set ↔ _
  rw [View.set_slice_whole, Rect.mem_set_unit]
  exact Iff.rfl

/-- The bands tile the message array: row `r` lies in band `r / 5000`. -/
theorem cover10 (i : S625000x128.Idx) : ∃ t : Fin cfg0.N, (cfg0.win 10).flush t = true ∧ i ∈ ((cfg0.win 10).blk t).view.set := by
  have hi0 : (i 0).val < 625000 := (i 0).isLt
  have hi1 : (i 1).val < 128 := (i 1).isLt
  have hN : cfg0.N = 125 := N_0
  obtain ⟨t, ht⟩ : ∃ t : Fin cfg0.N, t.val = (i 0).val / 5000 := ⟨⟨(i 0).val / 5000, by rw [hN]; omega⟩, rfl⟩
  refine ⟨t, flush0_10 t, ?_⟩
  rw [mem_blk10]
  obtain ⟨-, -, -, -, -, -, -, -, -, -, ⟨e0, e1⟩, -⟩ := idx_facts t
  intro a
  match a with
  | ⟨0, _⟩ => show win0_10.index t (0 : Fin 2) * 5000 ≤ (i 0).val ∧ (i 0).val < win0_10.index t (0 : Fin 2) * 5000 + 5000; rw [e0]; omega
  | ⟨1, _⟩ => show win0_10.index t (1 : Fin 2) * 128 ≤ (i 1).val ∧ (i 1).val < win0_10.index t (1 : Fin 2) * 128 + 128; rw [e1]; omega

/-- THE MESSAGE ARRAY after the region. -/
theorem arr10 (c : Dev nD) : (dat0 V c).arrAt 10 cfg0.N = msgArr V c :=
  (dat0 V c).arrAt_eq_of_cover 10 (msgArr V c) (fun t _ => flushed10_eq V c t) cover10

/-! ## The new edge features (window 11) -/

/-- The whole new-edge array: the three-block row map of the edge rows, the source rows and the target rows. -/
abbrev enewArr (c : Dev nD) : S625000x128.Idx → EReal :=
  Spec.lin3 (V c main_arg1) (V c main_v10) (V c main_v17) (V c main_v20) (V c main_v21) (V c main_v22) (V c main_v24)

theorem emb11 (t : Fin cfg0.N) (p : Fin 5000) (q : Fin 128) (h : t.val * 5000 + p.val < 625000) :
    ((cfg0.win 11).blk t).view.emb (ix2 p q : S5000x128.Idx) = (ix2 ⟨t.val * 5000 + p.val, h⟩ q : S625000x128.Idx) := by
  refine funext fun a => Fin.ext ?_
  obtain ⟨-, -, -, -, -, -, -, -, -, -, -, ⟨e0, e1⟩⟩ := idx_facts t
  match a with
  | ⟨0, _⟩ => show win0_11.index t (0 : Fin 2) * 5000 + 1 * p.val = t.val * 5000 + p.val; rw [e0]; omega
  | ⟨1, _⟩ => show win0_11.index t (1 : Fin 2) * 128 + 1 * q.val = q.val; rw [e1]; omega

/-- What point `t` writes back to the new-edge array is band `t` of `enewArr`. -/
theorem flushed11_eq (c : Dev nD) (t : Fin cfg0.N) :
    (dat0 V c).flushed 11 t = ((cfg0.win 11).blk t).view.read (Elt Ideal) (enewArr V c) := by
  show (cfg0.win 11).cut (grid0.coords t) ((dat0 V c).after 11 t) = _
  rw [after0_11]
  unfold out0_11
  rw [View.canon_unit_zero hz]
  simp only [View.ld_unit_zero (S := S5000x128) hz, View.ld_unit_zero (S := S128x128) hz, View.ld_unit_zero (S := S1x128) hz]
  rw [Block.pay_enew]
  funext j
  obtain ⟨p, q, rfl⟩ : ∃ (p : Fin 5000) (q : Fin 128), j = (ix2 p q : S5000x128.Idx) :=
    ⟨j 0, j 1, eq_ix2 (n0 := 5000) (n1 := 128) j⟩
  have hb : ∀ p : Fin 5000, t.val * 5000 + p.val < 625000 := fun p => by have := t_lt t; have := p.isLt; omega
  show Spec.lin3 (iblk0 V c 2 t) (iblk0 V c 0 t) (iblk0 V c 1 t) (iblk0 V c 6 t) (iblk0 V c 7 t) (iblk0 V c 8 t) (iblk0 V c 9 t) (ix2 p q : S5000x128.Idx)
    = enewArr V c (((cfg0.win 11).blk t).view.emb (ix2 p q : S5000x128.Idx))
  rw [emb11 t p q (hb p)]
  exact Spec.lin3_block (t.val * 5000) (V c main_arg1) (V c main_v10) (V c main_v17) (iblk0 V c 2 t) (iblk0 V c 0 t) (iblk0 V c 1 t)
    (V c main_v20) (V c main_v21) (V c main_v22) (iblk0 V c 6 t) (iblk0 V c 7 t) (iblk0 V c 8 t) (V c main_v24) (iblk0 V c 9 t) hb
    (fun p k => rd2 V c t p k (hb p)) (fun p k => rd0 V c t p k (hb p)) (fun p k => rd1 V c t p k (hb p))
    (w6 V c t) (w7 V c t) (w8 V c t) (w9 V c t) p q

theorem mem_blk11 (t : Fin cfg0.N) (i : S625000x128.Idx) :
    i ∈ ((cfg0.win 11).blk t).view.set ↔ ∀ a : Fin 2, win0_11.index t a * S5000x128.size a ≤ (i a).val ∧ (i a).val < win0_11.index t a * S5000x128.size a + S5000x128.size a := by
  show i ∈ ((View.whole main_v25_1).slice (win0_11.rect t)).set ↔ _
  rw [View.set_slice_whole, Rect.mem_set_unit]
  exact Iff.rfl

theorem cover11 (i : S625000x128.Idx) : ∃ t : Fin cfg0.N, (cfg0.win 11).flush t = true ∧ i ∈ ((cfg0.win 11).blk t).view.set := by
  have hi0 : (i 0).val < 625000 := (i 0).isLt
  have hi1 : (i 1).val < 128 := (i 1).isLt
  have hN : cfg0.N = 125 := N_0
  obtain ⟨t, ht⟩ : ∃ t : Fin cfg0.N, t.val = (i 0).val / 5000 := ⟨⟨(i 0).val / 5000, by rw [hN]; omega⟩, rfl⟩
  refine ⟨t, flush0_11 t, ?_⟩
  rw [mem_blk11]
  obtain ⟨-, -, -, -, -, -, -, -, -, -, -, ⟨e0, e1⟩⟩ := idx_facts t
  intro a
  match a with
  | ⟨0, _⟩ => show win0_11.index t (0 : Fin 2) * 5000 ≤ (i 0).val ∧ (i 0).val < win0_11.index t (0 : Fin 2) * 5000 + 5000; rw [e0]; omega
  | ⟨1, _⟩ => show win0_11.index t (1 : Fin 2) * 128 ≤ (i 1).val ∧ (i 1).val < win0_11.index t (1 : Fin 2) * 128 + 128; rw [e1]; omega

/-- THE NEW EDGE FEATURES after the region. -/
theorem arr11 (c : Dev nD) : (dat0 V c).arrAt 11 cfg0.N = enewArr V c :=
  (dat0 V c).arrAt_eq_of_cover 11 (enewArr V c) (fun t _ => flushed11_eq V c t) cover11

end Cert.KernelIdeal.Region0

end
-- ==== Proof.Region1.lean ====
/-
  The node region, whole: what its result array holds when it ends, for any contents `V` of its operand arrays at entry.

  Twenty grid points; point `t` reads rows `5000 t … 5000 t + 4999` of the node features and of the mean messages and the
  whole of both weight blocks and the bias row, and writes back the same rows of the result. What it writes back is band
  `t` of ONE array, the two-block row map of the whole operand arrays, and the twenty bands tile the result.
-/
import proofs.«173192_j27144193311129_1_alg».proof.Proof.Gen.KernelIdeal.Frame
import proofs.«173192_j27144193311129_1_alg».proof.Proof.BlockOps
import Idealize.ShloMosaic.Lib.Pipeline.Value
import Idealize.ShloMosaic.Lib.ValueIdx

set_option maxRecDepth 16384

noncomputable section

open scoped BigOperators

namespace Cert.KernelIdeal.Region1

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

theorem t_lt (t : Fin cfg1.N) : t.val < 20 := lt_of_lt_of_eq t.isLt N_1

/-- The printed index maps over the grid: the per-node row windows sit at block `(t, 0)`, the weight and bias windows at `(0, 0)`. -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = t.val ∧ win1_5.index t (1 : Fin 2) = 0) :=
  (by decide +kernel : ∀ t : Fin grid1.N, _)

/-! ## The input blocks, read where they lie in their arrays -/

/-- Node rows: row `p` of point `t`'s block is row `5000 t + p` of the array. -/
theorem rd0 (c : Dev nD) (t : Fin cfg1.N) (p : Fin 5000) (k : Fin 128) (h : t.val * 5000 + p.val < 100000) :
    iblk1 V c 0 t (ix2 p k : S5000x128.Idx) = V c main_arg0 (ix2 ⟨t.val * 5000 + p.val, h⟩ k : S100000x128.Idx) := by
  show V c main_arg0 (((cfg1.win 0).blk t).view.emb (ix2 p k : S5000x128.Idx)) = _
  refine congrArg (V c main_arg0) (funext fun a => Fin.ext ?_)
  obtain ⟨⟨e0, e1⟩, -⟩ := idx_facts t
  match a with
  | ⟨0, _⟩ => show win1_0.index t (0 : Fin 2) * 5000 + 1 * p.val = t.val * 5000 + p.val; rw [e0]; omega
  | ⟨1, _⟩ => show win1_0.index t (1 : Fin 2) * 128 + 1 * k.val = k.val; rw [e1]; omega

/-- Mean-message rows. -/
theorem rd1 (c : Dev nD) (t : Fin cfg1.N) (p : Fin 5000) (k : Fin 128) (h : t.val * 5000 + p.val < 100000) :
    iblk1 V c 1 t (ix2 p k : S5000x128.Idx) = V c main_v37 (ix2 ⟨t.val * 5000 + p.val, h⟩ k : S100000x128.Idx) := by
  show V c main_v37 (((cfg1.win 1).blk t).view.emb (ix2 p k : S5000x128.Idx)) = _
  refine congrArg (V c main_v37) (funext fun a => Fin.ext ?_)
  obtain ⟨-, ⟨e0, e1⟩, -⟩ := idx_facts t
  match a with
  | ⟨0, _⟩ => show win1_1.index t (0 : Fin 2) * 5000 + 1 * p.val = t.val * 5000 + p.val; rw [e0]; omega
  | ⟨1, _⟩ => show win1_1.index t (1 : Fin 2) * 128 + 1 * k.val = k.val; rw [e1]; omega

/-- A weight block or the bias row is its whole array at every point. -/
theorem w2 (c : Dev nD) (t : Fin cfg1.N) : iblk1 V c 2 t = V c main_v38 := by
  funext y
  show V c main_v38 (((cfg1.win 2).blk t).view.emb y) = V c main_v38 y
  refine congrArg (V c main_v38) (funext fun a => Fin.ext ?_)
  obtain ⟨-, -, ⟨e0, e1⟩, -⟩ := idx_facts t
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega
theorem w3 (c : Dev nD) (t : Fin cfg1.N) : iblk1 V c 3 t = V c main_v39 := by
  funext y
  show V c main_v39 (((cfg1.win 3).blk t).view.emb y) = V c main_v39 y
  refine congrArg (V c main_v39) (funext fun a => Fin.ext ?_)
  obtain ⟨-, -, -, ⟨e0, e1⟩, -⟩ := idx_facts t
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega
theorem w4 (c : Dev nD) (t : Fin cfg1.N) : iblk1 V c 4 t = V c main_v40 := by
  funext y
  show V c main_v40 (((cfg1.win 4).blk t).view.emb y) = V c main_v40 y
  refine congrArg (V c main_v40) (funext fun a => Fin.ext ?_)
  obtain ⟨-, -, -, -, ⟨e0, e1⟩, -⟩ := idx_facts t
  match a with
  | ⟨0, _⟩ => show win1_4.index t (0 : Fin 2) * 1 + 1 * (y 0).val = (y 0).val; rw [e0]; omega
  | ⟨1, _⟩ => show win1_4.index t (1 : Fin 2) * 128 + 1 * (y 1).val = (y 1).val; rw [e1]; omega

/-! ## The new node features (window 5) -/

/-- The whole new-node array: the two-block row map of the node rows and the mean-message rows. -/
abbrev hnewArr (c : Dev nD) : S100000x128.Idx → EReal :=
  Spec.lin2 (V c main_arg0) (V c main_v37) (V c main_v38) (V c main_v39) (V c main_v40)

/-- Where point `t`'s block element `(p, q)` lies in the result array. -/
theorem emb5 (t : Fin cfg1.N) (p : Fin 5000) (q : Fin 128) (h : t.val * 5000 + p.val < 100000) :
    ((cfg1.win 5).blk t).view.emb (ix2 p q : S5000x128.Idx) = (ix2 ⟨t.val * 5000 + p.val, h⟩ q : S100000x128.Idx) := by
  refine funext fun a => Fin.ext ?_
  obtain ⟨-, -, -, -, -, ⟨e0, e1⟩⟩ := idx_facts t
  match a with
  | ⟨0, _⟩ => show win1_5.index t (0 : Fin 2) * 5000 + 1 * p.val = t.val * 5000 + p.val; rw [e0]; omega
  | ⟨1, _⟩ => show win1_5.index t (1 : Fin 2) * 128 + 1 * q.val = q.val; rw [e1]; omega

/-- What point `t` writes back is band `t` of `hnewArr`. -/
theorem flushed5_eq (c : Dev nD) (t : Fin cfg1.N) :
    (dat1 V c).flushed 5 t = ((cfg1.win 5).blk t).view.read (Elt Ideal) (hnewArr V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  rw [Block.pay_hnew]
  funext j
  obtain ⟨p, q, rfl⟩ : ∃ (p : Fin 5000) (q : Fin 128), j = (ix2 p q : S5000x128.Idx) :=
    ⟨j 0, j 1, eq_ix2 (n0 := 5000) (n1 := 128) j⟩
  have hb : ∀ p : Fin 5000, t.val * 5000 + p.val < 100000 := fun p => by have := t_lt t; have := p.isLt; omega
  show Spec.lin2 (iblk1 V c 0 t) (iblk1 V c 1 t) (iblk1 V c 2 t) (iblk1 V c 3 t) (iblk1 V c 4 t) (ix2 p q : S5000x128.Idx)
    = hnewArr V c (((cfg1.win 5).blk t).view.emb (ix2 p q : S5000x128.Idx))
  rw [emb5 t p q (hb p)]
  exact Spec.lin2_block (t.val * 5000) (V c main_arg0) (V c main_v37) (iblk1 V c 0 t) (iblk1 V c 1 t)
    (V c main_v38) (V c main_v39) (iblk1 V c 2 t) (iblk1 V c 3 t) (V c main_v40) (iblk1 V c 4 t) hb
    (fun p k => rd0 V c t p k (hb p)) (fun p k => rd1 V c t p k (hb p)) (w2 V c t) (w3 V c t) (w4 V c t) p q

/-- An index of the result array is in point `t`'s band iff each coordinate is in the band's range. -/
theorem mem_blk5 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v41).slice (win1_5.rect t)).set ↔ _
  rw [View.set_slice_whole, Rect.mem_set_unit]
  exact Iff.rfl

/-- The bands tile the result array: row `r` lies in band `r / 5000`. -/
theorem cover5 (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  obtain ⟨t, ht⟩ : ∃ t : Fin cfg1.N, t.val = (i 0).val / 5000 := ⟨⟨(i 0).val / 5000, by rw [hN]; omega⟩, rfl⟩
  refine ⟨t, flush1_5 t, ?_⟩
  rw [mem_blk5]
  obtain ⟨-, -, -, -, -, ⟨e0, e1⟩⟩ := idx_facts t
  intro a
  match a with
  | ⟨0, _⟩ => show win1_5.index t (0 : Fin 2) * 5000 ≤ (i 0).val ∧ (i 0).val < win1_5.index t (0 : Fin 2) * 5000 + 5000; rw [e0]; omega
  | ⟨1, _⟩ => show win1_5.index t (1 : Fin 2) * 128 ≤ (i 1).val ∧ (i 1).val < win1_5.index t (1 : Fin 2) * 128 + 128; rw [e1]; omega

/-- THE NEW NODE FEATURES after the region. -/
theorem arr5 (c : Dev nD) : (dat1 V c).arrAt 5 cfg1.N = hnewArr V c :=
  (dat1 V c).arrAt_eq_of_cover 5 (hnewArr V c) (fun t _ => flushed5_eq V c t) cover5

end Cert.KernelIdeal.Region1

end
-- ==== Proof.RefTerms.lean ====
/-
  The scatter-mean, named once.

  Both programs turn the per-edge messages into per-node means by the same host operations: rows of the message array
  are added into the row of their edge's target node, a count of edges per target node is formed the same way from
  ones, and each row sum is divided by `max count 1`. That chain is one function `agg` of the message array and
  the edge list; it is never opened: equal message arrays give equal means.
-/
import proofs.«173192_j27144193311129_1_alg».proof.Proof.Gen.ReferenceIdeal.Read

noncomputable section

namespace Cert.ReferenceIdeal.Terms

open Cert.ReferenceIdeal Cert.ReferenceIdeal.Gen Cert.ReferenceIdeal.Read Idealize.ShloMosaic Idealize.ShloMosaic.TcCoe Idealize.SL.Sem

variable {F : FTy → Type} [FloatOps F]

/-- The mean, per target node, of the rows of `msg` over the edges that point at it (zero where there is none). -/
def agg (msg : (⟨S625000x128, .f32⟩ : BufTy).Contents (Elt F)) (x2 : (⟨S2x625000, .i32⟩ : BufTy).Contents (Elt F)) :
    (⟨S100000x128, .f32⟩ : BufTy).Contents (Elt F) :=
  Host.divf (Host.scatterAdd scatter_S100000x128_S625000x1_S625000x128_1_0_0_1 (val_main_v24 (F := F)) (val_main_v25 (F := F) x2) msg)
    (val_main_v34 (F := F) x2)

/-- The reference's aggregated messages are the mean of its messages. -/
theorem v35_eq (x0 : (⟨S100000x128, .f32⟩ : BufTy).Contents (Elt F)) (x1 : (⟨S625000x128, .f32⟩ : BufTy).Contents (Elt F))
    (x2 : (⟨S2x625000, .i32⟩ : BufTy).Contents (Elt F)) (x3 : (⟨S256x128, .f32⟩ : BufTy).Contents (Elt F))
    (x4 : (⟨S128, .f32⟩ : BufTy).Contents (Elt F)) :
    val_main_v35 (F := F) x0 x1 x2 x3 x4 = agg (val_main_v23 (F := F) x0 x1 x2 x3 x4) x2 := rfl

end Cert.ReferenceIdeal.Terms

end
-- ==== Proof.HostChain.lean ====
/-
  What each kernel region finds in its operand arrays, as a function of the arguments.

  Before the edge region the host gathers the source-node rows and the target-node rows of every edge, cuts the message
  and edge weights into their 128-row blocks and reads the two bias vectors as one-row matrices; between the regions it
  takes the scatter-mean of the edge region's message array and cuts the node weights and bias the same way. The gather
  chains and the scatter-mean are, operation for operation, the plain program's (`Read.val_main_v10`,
  `Read.val_main_v17`, `Terms.agg`), so they are named by those terms and never opened. No host operation and no
  region writes an argument or the edge region's second result after it is made.
-/
import proofs.«173192_j27144193311129_1_alg».proof.Proof.Gen.KernelIdeal.Frame
import proofs.«173192_j27144193311129_1_alg».proof.Proof.RefTerms
import Idealize.ShloMosaic.Lib.StableHlo.Run

set_option maxRecDepth 16384

noncomputable section

namespace Cert.KernelIdeal.Host

open Cert.KernelIdeal Cert.KernelIdeal.Gen
open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg)

/-! ## At the edge region's entry -/

theorem V1_v10 (c : Dev nD) : V1 m ρ c main_v10 = Cert.ReferenceIdeal.Read.val_main_v10 (F := Ideal) (m ((c : Thread nD τ).loc main_arg0)) (m ((c : Thread nD τ).loc main_arg2)) := by
  show StableHlo.after hostOps0 (W0 m ρ c) (Proc.devRef .tc main_v10) = _
  after_results
  rfl
theorem V1_v17 (c : Dev nD) : V1 m ρ c main_v17 = Cert.ReferenceIdeal.Read.val_main_v17 (F := Ideal) (m ((c : Thread nD τ).loc main_arg0)) (m ((c : Thread nD τ).loc main_arg2)) := by
  show StableHlo.after hostOps0 (W0 m ρ c) (Proc.devRef .tc main_v17) = _
  after_results_simp
  rfl
theorem V1_arg1 (c : Dev nD) : V1 m ρ c main_arg1 = (m ((c : Thread nD τ).loc main_arg1)) := by
  refine (StableHlo.after_of_forall_not_mem (b := Proc.devRef .tc main_arg1) _ _ (List.forall_iff_forall_mem.mp ?_)).trans rfl
  simp only [hostOps0, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)
theorem V1_v18 (c : Dev nD) : V1 m ρ c main_v18 = extractStridedSlice S128x128 ![0, 0] (m ((c : Thread nD τ).loc main_arg3)) slices_S256x128_S128x128_0_0 := by
  show StableHlo.after hostOps0 (W0 m ρ c) (Proc.devRef .tc main_v18) = _
  after_results
theorem V1_v19 (c : Dev nD) : V1 m ρ c main_v19 = extractStridedSlice S128x128 ![128, 0] (m ((c : Thread nD τ).loc main_arg3)) slices_S256x128_S128x128_128_0 := by
  show StableHlo.after hostOps0 (W0 m ρ c) (Proc.devRef .tc main_v19) = _
  after_results
theorem V1_v20 (c : Dev nD) : V1 m ρ c main_v20 = extractStridedSlice S128x128 ![0, 0] (m ((c : Thread nD τ).loc main_arg7)) slices_S384x128_S128x128_0_0 := by
  show StableHlo.after hostOps0 (W0 m ρ c) (Proc.devRef .tc main_v20) = _
  after_results
theorem V1_v21 (c : Dev nD) : V1 m ρ c main_v21 = extractStridedSlice S128x128 ![128, 0] (m ((c : Thread nD τ).loc main_arg7)) slices_S384x128_S128x128_128_0 := by
  show StableHlo.after hostOps0 (W0 m ρ c) (Proc.devRef .tc main_v21) = _
  after_results
theorem V1_v22 (c : Dev nD) : V1 m ρ c main_v22 = extractStridedSlice S128x128 ![256, 0] (m ((c : Thread nD τ).loc main_arg7)) slices_S384x128_S128x128_256_0 := by
  show StableHlo.after hostOps0 (W0 m ρ c) (Proc.devRef .tc main_v22) = _
  after_results
theorem V1_v23 (c : Dev nD) : V1 m ρ c main_v23 = shapeCast S1x128 (m ((c : Thread nD τ).loc main_arg4)) shapeCasts_S128_S1x128 := by
  show StableHlo.after hostOps0 (W0 m ρ c) (Proc.devRef .tc main_v23) = _
  after_results
  rfl
theorem V1_v24 (c : Dev nD) : V1 m ρ c main_v24 = shapeCast S1x128 (m ((c : Thread nD τ).loc main_arg8)) shapeCasts_S128_S1x128 := by
  show StableHlo.after hostOps0 (W0 m ρ c) (Proc.devRef .tc main_v24) = _
  after_results
  rfl

/-! ## At the node region's entry -/

/-- The first argument is as launched when the edge region ends: the first host stretch does not write it and it is
    no array of the edge region. -/
private theorem W2_arg0 (c : Dev nD) : W2 m ρ c (Proc.devRef .tc main_arg0) = m ((c : Thread nD τ).loc main_arg0) :=
  (W2_of_ne m ρ c main_arg0 (by decide)).trans
    ((StableHlo.after_of_forall_not_mem (b := Proc.devRef .tc main_arg0) _ _ (List.forall_iff_forall_mem.mp (by
      simp only [hostOps0, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))).trans rfl)
/-- The sixth argument is as launched when the edge region ends: the first host stretch does not write it and it is
    no array of the edge region. -/
private theorem W2_arg5 (c : Dev nD) : W2 m ρ c (Proc.devRef .tc main_arg5) = m ((c : Thread nD τ).loc main_arg5) :=
  (W2_of_ne m ρ c main_arg5 (by decide)).trans
    ((StableHlo.after_of_forall_not_mem (b := Proc.devRef .tc main_arg5) _ _ (List.forall_iff_forall_mem.mp (by
      simp only [hostOps0, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))).trans rfl)
/-- The seventh argument is as launched when the edge region ends: the first host stretch does not write it and it is
    no array of the edge region. -/
private theorem W2_arg6 (c : Dev nD) : W2 m ρ c (Proc.devRef .tc main_arg6) = m ((c : Thread nD τ).loc main_arg6) :=
  (W2_of_ne m ρ c main_arg6 (by decide)).trans
    ((StableHlo.after_of_forall_not_mem (b := Proc.devRef .tc main_arg6) _ _ (List.forall_iff_forall_mem.mp (by
      simp only [hostOps0, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))).trans rfl)
/-- The target-node index vector, made by the first host stretch, is still there when the edge region ends. -/
private theorem W2_v3 (c : Dev nD) : W2 m ρ c (Proc.devRef .tc main_v3) = Cert.ReferenceIdeal.Read.val_main_v3 (F := Ideal) (m ((c : Thread nD τ).loc main_arg2)) := by
  refine (W2_of_ne m ρ c main_v3 (by decide)).trans ?_
  show StableHlo.after hostOps0 (W0 m ρ c) (Proc.devRef .tc main_v3) = _
  after_results
  rfl

theorem V3_arg0 (c : Dev nD) : V3 m ρ c main_arg0 = (m ((c : Thread nD τ).loc main_arg0)) := by
  exact (StableHlo.after_of_forall_not_mem (b := Proc.devRef .tc main_arg0) _ _ (List.forall_iff_forall_mem.mp (by
      simp only [hostOps1, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))).trans (W2_arg0 m ρ c)
/-- The node region's second operand is the scatter-mean of what the edge region left in its first result array. -/
theorem V3_v37 (c : Dev nD) : V3 m ρ c main_v37 = Cert.ReferenceIdeal.Terms.agg (F := Ideal) (V2 m ρ c main_v25_0) (m ((c : Thread nD τ).loc main_arg2)) := by
  show StableHlo.after hostOps1 (W2 m ρ c) (Proc.devRef .tc main_v37) = _
  after_results
  rw [W2_v3 m ρ c]
  rfl
theorem V3_v38 (c : Dev nD) : V3 m ρ c main_v38 = extractStridedSlice S128x128 ![0, 0] (m ((c : Thread nD τ).loc main_arg5)) slices_S256x128_S128x128_0_0 := by
  show StableHlo.after hostOps1 (W2 m ρ c) (Proc.devRef .tc main_v38) = _
  after_results
  rw [W2_arg5 m ρ c]
theorem V3_v39 (c : Dev nD) : V3 m ρ c main_v39 = extractStridedSlice S128x128 ![128, 0] (m ((c : Thread nD τ).loc main_arg5)) slices_S256x128_S128x128_128_0 := by
  show StableHlo.after hostOps1 (W2 m ρ c) (Proc.devRef .tc main_v39) = _
  after_results
  rw [W2_arg5 m ρ c]
theorem V3_v40 (c : Dev nD) : V3 m ρ c main_v40 = shapeCast S1x128 (m ((c : Thread nD τ).loc main_arg6)) shapeCasts_S128_S1x128 := by
  show StableHlo.after hostOps1 (W2 m ρ c) (Proc.devRef .tc main_v40) = _
  after_results
  rw [W2_arg6 m ρ c]
  rfl

/-! ## After the node region -/

/-- The edge result is not touched after the edge region. -/
theorem V4_v25_1 (c : Dev nD) : V4 m ρ c main_v25_1 = V2 m ρ c main_v25_1 := by
  exact (W4_of_ne m ρ c main_v25_1 (by decide)).trans
    (StableHlo.after_of_forall_not_mem (b := Proc.devRef .tc main_v25_1) _ _ (List.forall_iff_forall_mem.mp (by
      simp only [hostOps1, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

end Cert.KernelIdeal.Host

end
-- ==== Proof.Bridge.lean ====
/-
  The plain program's dense layers are the row maps of `Spec`.

  The plain program lays its row blocks side by side (a concatenation along the columns) and multiplies the wide rows
  with the stacked weights: at `(r, j)` that is `Σ_{k < 256} [a | b] (r, k) · w (k, j)` (or over 384 with three
  blocks). Splitting the sum at 128 (and 256), the left run reads the first block against the weights' first 128 rows
  and the right run the next block against the next 128 rows — which are exactly the row slices the fused program
  passes to its kernels; the bias row is the bias vector read as a one-row matrix, and the rectifier is `max · 0`.
-/
import proofs.«173192_j27144193311129_1_alg».proof.Proof.Spec
import proofs.«173192_j27144193311129_1_alg».proof.Proof.RefTerms
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.Bridge

open Cert.ReferenceIdeal Cert.ReferenceIdeal.Gen Cert.ReferenceIdeal.Read Cert.ReferenceIdeal.Terms
open Idealize.ShloMosaic Idealize.ShloMosaic.TcCoe Idealize.ShloMosaic.ValueIdx Idealize.SL.Sem

/-- A side-by-side pair of 128-column blocks, read in the left block. -/
private theorem cat2_left {α : Type} {N : Nat} (a b : (⟨2, ![N, 128]⟩ : Shape).Idx → α)
    (h : Shape.Concatenates [(⟨2, ![N, 128]⟩ : Shape), ⟨2, ![N, 128]⟩] ⟨2, ![N, 256]⟩ 1) (r : Fin N) (k : Fin 128)
    (hk : k.val < 256) :
    concatenate (⟨2, ![N, 256]⟩ : Shape) 1 [⟨⟨2, ![N, 128]⟩, a⟩, ⟨⟨2, ![N, 128]⟩, b⟩] h (ix2 r ⟨k.val, hk⟩) = a (ix2 r k) :=
  concatenate_pair_apply_left 1 a b h _ rfl (ix2 r k) (fun c => by
    match c with
    | ⟨0, _⟩ => rfl
    | ⟨1, _⟩ => rfl)

/-- A side-by-side pair of 128-column blocks, read in the right block. -/
private theorem cat2_right {α : Type} {N : Nat} (a b : (⟨2, ![N, 128]⟩ : Shape).Idx → α)
    (h : Shape.Concatenates [(⟨2, ![N, 128]⟩ : Shape), ⟨2, ![N, 128]⟩] ⟨2, ![N, 256]⟩ 1) (r : Fin N) (k : Fin 128)
    (hk : 128 + k.val < 256) :
    concatenate (⟨2, ![N, 256]⟩ : Shape) 1 [⟨⟨2, ![N, 128]⟩, a⟩, ⟨⟨2, ![N, 128]⟩, b⟩] h (ix2 r ⟨128 + k.val, hk⟩) = b (ix2 r k) :=
  concatenate_pair_apply_right 1 a b h _ rfl rfl (ix2 r k) (fun c hc => by
    match c, hc with
    | ⟨0, _⟩, _ => rfl
    | ⟨1, _⟩, hc => exact absurd rfl hc) (Nat.add_comm _ _)

/-- Three 128-column blocks side by side, read in the first block. -/
private theorem cat3_fst {α : Type} {N : Nat} (a b c : (⟨2, ![N, 128]⟩ : Shape).Idx → α)
    (h : Shape.Concatenates [(⟨2, ![N, 128]⟩ : Shape), ⟨2, ![N, 128]⟩, ⟨2, ![N, 128]⟩] ⟨2, ![N, 384]⟩ 1)
    (r : Fin N) (k : Fin 128) (hk : k.val < 384) :
    concatenate (⟨2, ![N, 384]⟩ : Shape) 1 [⟨⟨2, ![N, 128]⟩, a⟩, ⟨⟨2, ![N, 128]⟩, b⟩, ⟨⟨2, ![N, 128]⟩, c⟩] h
      (ix2 r ⟨k.val, hk⟩) = a (ix2 r k) :=
  concatenate_apply_piece (t := ⟨2, ![N, 384]⟩) 1 [⟨⟨2, ![N, 128]⟩, a⟩, ⟨⟨2, ![N, 128]⟩, b⟩, ⟨⟨2, ![N, 128]⟩, c⟩] h _ 0 (by show 0 < 3; omega) _ a rfl rfl 0 rfl (ix2 r k) (fun d hd => by
    match d, hd with
    | ⟨0, _⟩, _ => rfl
    | ⟨1, _⟩, hd => exact absurd rfl hd) (Nat.zero_add _)

/-- Three 128-column blocks side by side, read in the second block. -/
private theorem cat3_snd {α : Type} {N : Nat} (a b c : (⟨2, ![N, 128]⟩ : Shape).Idx → α)
    (h : Shape.Concatenates [(⟨2, ![N, 128]⟩ : Shape), ⟨2, ![N, 128]⟩, ⟨2, ![N, 128]⟩] ⟨2, ![N, 384]⟩ 1)
    (r : Fin N) (k : Fin 128) (hk : 128 + k.val < 384) :
    concatenate (⟨2, ![N, 384]⟩ : Shape) 1 [⟨⟨2, ![N, 128]⟩, a⟩, ⟨⟨2, ![N, 128]⟩, b⟩, ⟨⟨2, ![N, 128]⟩, c⟩] h
      (ix2 r ⟨128 + k.val, hk⟩) = b (ix2 r k) :=
  concatenate_apply_piece (t := ⟨2, ![N, 384]⟩) 1 [⟨⟨2, ![N, 128]⟩, a⟩, ⟨⟨2, ![N, 128]⟩, b⟩, ⟨⟨2, ![N, 128]⟩, c⟩] h _ 1 (by show 1 < 3; omega) _ b rfl rfl 128 rfl (ix2 r k) (fun d hd => by
    match d, hd with
    | ⟨0, _⟩, _ => rfl
    | ⟨1, _⟩, hd => exact absurd rfl hd) rfl

/-- Three 128-column blocks side by side, read in the third block. -/
private theorem cat3_trd {α : Type} {N : Nat} (a b c : (⟨2, ![N, 128]⟩ : Shape).Idx → α)
    (h : Shape.Concatenates [(⟨2, ![N, 128]⟩ : Shape), ⟨2, ![N, 128]⟩, ⟨2, ![N, 128]⟩] ⟨2, ![N, 384]⟩ 1)
    (r : Fin N) (k : Fin 128) (hk : 256 + k.val < 384) :
    concatenate (⟨2, ![N, 384]⟩ : Shape) 1 [⟨⟨2, ![N, 128]⟩, a⟩, ⟨⟨2, ![N, 128]⟩, b⟩, ⟨⟨2, ![N, 128]⟩, c⟩] h
      (ix2 r ⟨256 + k.val, hk⟩) = c (ix2 r k) :=
  concatenate_apply_piece (t := ⟨2, ![N, 384]⟩) 1 [⟨⟨2, ![N, 128]⟩, a⟩, ⟨⟨2, ![N, 128]⟩, b⟩, ⟨⟨2, ![N, 128]⟩, c⟩] h _ 2 (by show 2 < 3; omega) _ c rfl rfl 256 rfl (ix2 r k) (fun d hd => by
    match d, hd with
    | ⟨0, _⟩, _ => rfl
    | ⟨1, _⟩, hd => exact absurd rfl hd) rfl

/-- The messages: source-node rows and edge rows against the two halves of the message weights. -/
theorem msg_eq (x0 : (⟨S100000x128, .f32⟩ : BufTy).Contents (Elt Ideal)) (x1 : (⟨S625000x128, .f32⟩ : BufTy).Contents (Elt Ideal)) (x2 : (⟨S2x625000, .i32⟩ : BufTy).Contents (Elt Ideal))
    (x3 : (⟨S256x128, .f32⟩ : BufTy).Contents (Elt Ideal)) (x4 : (⟨S128, .f32⟩ : BufTy).Contents (Elt Ideal))
    (h0 : S256x128.Slices ![0, 0] ⟨2, ![128, 128]⟩) (h1 : S256x128.Slices ![128, 0] ⟨2, ![128, 128]⟩)
    (hc : S128.ShapeCasts S1x128) :
    Spec.lin2 (val_main_v10 (F := Ideal) x0 x2) x1 (extractStridedSlice ⟨2, ![128, 128]⟩ ![0, 0] x3 h0)
        (extractStridedSlice ⟨2, ![128, 128]⟩ ![128, 0] x3 h1) (shapeCast S1x128 x4 hc)
      = val_main_v23 (F := Ideal) x0 x1 x2 x3 x4 := by
  funext i
  obtain ⟨r, j, rfl⟩ : ∃ (p : Fin 625000) (q : Fin 128), i = ix2 p q := ⟨i 0, i 1, eq_ix2 i⟩
  rw [Spec.lin2_apply, val_main_v23_apply, val_main_v22_apply, val_main_v19_apply, val_main_v21_apply,
    val_main_v20_apply, val_main_call0_v0_apply, val_main_call0_cst_apply]
  have el : ∀ k : Fin 256, lidx_main_v19 (ix2 r j) k = ix2 r k := fun k => funext fun a => by
    match a with
    | ⟨0, _⟩ => rfl
    | ⟨1, _⟩ => rfl
  have er : ∀ k : Fin 256, ridx_main_v19 (ix2 r j) k = ix2 k j := fun k => funext fun a => by
    match a with
    | ⟨0, _⟩ => rfl
    | ⟨1, _⟩ => rfl
  have eb : idx_main_v20 (idx_main_v21 (ix2 r j)) = ix1 j := funext fun a => by
    match a with
    | ⟨0, _⟩ => rfl
  rw [Spec.sum_split2, eb]
  refine congrArg₂ max (congrArg₂ (· + ·) (congrArg₂ (· + ·) (Finset.sum_congr rfl fun k _ => ?_)
    (Finset.sum_congr rfl fun k _ => ?_)) (shapeCast_a_1a_apply x4 hc 0 j)) Ideal.ofBits_zero_f32.symm
  · have e1 : val_main_v18 (F := Ideal) x0 x1 x2 (ix2 r ⟨k.val, by omega⟩) = val_main_v10 (F := Ideal) x0 x2 (ix2 r k) :=
      cat2_left _ _ _ r k _
    have e2 := slice2_axis0_apply 0 x3 h0 k j ⟨k.val, by omega⟩ (Nat.zero_add _).symm
    rw [el, er, e1, e2]
  · have e1 : val_main_v18 (F := Ideal) x0 x1 x2 (ix2 r ⟨128 + k.val, by omega⟩) = x1 (ix2 r k) :=
      cat2_right _ _ _ r k _
    have e2 := slice2_axis0_apply 128 x3 h1 k j ⟨128 + k.val, by omega⟩ rfl
    rw [el, er, e1, e2]

/-- The new node features: node rows and mean-message rows against the two halves of the node weights. -/
theorem hnew_eq (x0 : (⟨S100000x128, .f32⟩ : BufTy).Contents (Elt Ideal)) (x1 : (⟨S625000x128, .f32⟩ : BufTy).Contents (Elt Ideal)) (x2 : (⟨S2x625000, .i32⟩ : BufTy).Contents (Elt Ideal))
    (x3 : (⟨S256x128, .f32⟩ : BufTy).Contents (Elt Ideal)) (x4 : (⟨S128, .f32⟩ : BufTy).Contents (Elt Ideal)) (x5 : (⟨S256x128, .f32⟩ : BufTy).Contents (Elt Ideal)) (x6 : (⟨S128, .f32⟩ : BufTy).Contents (Elt Ideal))
    (h0 : S256x128.Slices ![0, 0] ⟨2, ![128, 128]⟩) (h1 : S256x128.Slices ![128, 0] ⟨2, ![128, 128]⟩)
    (hc : S128.ShapeCasts S1x128) :
    Spec.lin2 x0 (val_main_v35 (F := Ideal) x0 x1 x2 x3 x4) (extractStridedSlice ⟨2, ![128, 128]⟩ ![0, 0] x5 h0)
        (extractStridedSlice ⟨2, ![128, 128]⟩ ![128, 0] x5 h1) (shapeCast S1x128 x6 hc)
      = val_main_v41 (F := Ideal) x0 x1 x2 x3 x4 x5 x6 := by
  funext i
  obtain ⟨r, j, rfl⟩ : ∃ (p : Fin 100000) (q : Fin 128), i = ix2 p q := ⟨i 0, i 1, eq_ix2 i⟩
  rw [Spec.lin2_apply, val_main_v41_apply, val_main_v40_apply, val_main_v37_apply, val_main_v39_apply,
    val_main_v38_apply, val_main_call1_v0_apply, val_main_call1_cst_apply]
  have el : ∀ k : Fin 256, lidx_main_v37 (ix2 r j) k = ix2 r k := fun k => funext fun a => by
    match a with
    | ⟨0, _⟩ => rfl
    | ⟨1, _⟩ => rfl
  have er : ∀ k : Fin 256, ridx_main_v37 (ix2 r j) k = ix2 k j := fun k => funext fun a => by
    match a with
    | ⟨0, _⟩ => rfl
    | ⟨1, _⟩ => rfl
  have eb : idx_main_v38 (idx_main_v39 (ix2 r j)) = ix1 j := funext fun a => by
    match a with
    | ⟨0, _⟩ => rfl
  rw [Spec.sum_split2, eb]
  refine congrArg₂ max (congrArg₂ (· + ·) (congrArg₂ (· + ·) (Finset.sum_congr rfl fun k _ => ?_)
    (Finset.sum_congr rfl fun k _ => ?_)) (shapeCast_a_1a_apply x6 hc 0 j)) Ideal.ofBits_zero_f32.symm
  · have e1 : val_main_v36 (F := Ideal) x0 x1 x2 x3 x4 (ix2 r ⟨k.val, by omega⟩) = x0 (ix2 r k) :=
      cat2_left _ _ _ r k _
    have e2 := slice2_axis0_apply 0 x5 h0 k j ⟨k.val, by omega⟩ (Nat.zero_add _).symm
    rw [el, er, e1, e2]
  · have e1 : val_main_v36 (F := Ideal) x0 x1 x2 x3 x4 (ix2 r ⟨128 + k.val, by omega⟩)
        = val_main_v35 (F := Ideal) x0 x1 x2 x3 x4 (ix2 r k) :=
      cat2_right _ _ _ r k _
    have e2 := slice2_axis0_apply 128 x5 h1 k j ⟨128 + k.val, by omega⟩ rfl
    rw [el, er, e1, e2]

/-- The new edge features: edge rows, source-node rows and target-node rows against the three thirds of the edge weights. -/
theorem enew_eq (x0 : (⟨S100000x128, .f32⟩ : BufTy).Contents (Elt Ideal)) (x1 : (⟨S625000x128, .f32⟩ : BufTy).Contents (Elt Ideal)) (x2 : (⟨S2x625000, .i32⟩ : BufTy).Contents (Elt Ideal))
    (x7 : (⟨S384x128, .f32⟩ : BufTy).Contents (Elt Ideal)) (x8 : (⟨S128, .f32⟩ : BufTy).Contents (Elt Ideal))
    (h0 : S384x128.Slices ![0, 0] ⟨2, ![128, 128]⟩) (h1 : S384x128.Slices ![128, 0] ⟨2, ![128, 128]⟩)
    (h2 : S384x128.Slices ![256, 0] ⟨2, ![128, 128]⟩) (hc : S128.ShapeCasts S1x128) :
    Spec.lin3 x1 (val_main_v10 (F := Ideal) x0 x2) (val_main_v17 (F := Ideal) x0 x2)
        (extractStridedSlice ⟨2, ![128, 128]⟩ ![0, 0] x7 h0) (extractStridedSlice ⟨2, ![128, 128]⟩ ![128, 0] x7 h1)
        (extractStridedSlice ⟨2, ![128, 128]⟩ ![256, 0] x7 h2) (shapeCast S1x128 x8 hc)
      = val_main_v47 (F := Ideal) x0 x1 x2 x7 x8 := by
  funext i
  obtain ⟨r, j, rfl⟩ : ∃ (p : Fin 625000) (q : Fin 128), i = ix2 p q := ⟨i 0, i 1, eq_ix2 i⟩
  rw [Spec.lin3_apply, val_main_v47_apply, val_main_v46_apply, val_main_v43_apply, val_main_v45_apply,
    val_main_v44_apply, val_main_call2_v0_apply, val_main_call2_cst_apply]
  have el : ∀ k : Fin 384, lidx_main_v43 (ix2 r j) k = ix2 r k := fun k => funext fun a => by
    match a with
    | ⟨0, _⟩ => rfl
    | ⟨1, _⟩ => rfl
  have er : ∀ k : Fin 384, ridx_main_v43 (ix2 r j) k = ix2 k j := fun k => funext fun a => by
    match a with
    | ⟨0, _⟩ => rfl
    | ⟨1, _⟩ => rfl
  have eb : idx_main_v44 (idx_main_v45 (ix2 r j)) = ix1 j := funext fun a => by
    match a with
    | ⟨0, _⟩ => rfl
  rw [Spec.sum_split3, eb]
  refine congrArg₂ max (congrArg₂ (· + ·) (congrArg₂ (· + ·) (congrArg₂ (· + ·)
    (Finset.sum_congr rfl fun k _ => ?_) (Finset.sum_congr rfl fun k _ => ?_))
    (Finset.sum_congr rfl fun k _ => ?_)) (shapeCast_a_1a_apply x8 hc 0 j)) Ideal.ofBits_zero_f32.symm
  · have e1 : val_main_v42 (F := Ideal) x0 x1 x2 (ix2 r ⟨k.val, by omega⟩) = x1 (ix2 r k) :=
      cat3_fst _ _ _ _ r k _
    have e2 := slice2_axis0_apply 0 x7 h0 k j ⟨k.val, by omega⟩ (Nat.zero_add _).symm
    rw [el, er, e1, e2]
  · have e1 : val_main_v42 (F := Ideal) x0 x1 x2 (ix2 r ⟨128 + k.val, by omega⟩)
        = val_main_v10 (F := Ideal) x0 x2 (ix2 r k) :=
      cat3_snd _ _ _ _ r k _
    have e2 := slice2_axis0_apply 128 x7 h1 k j ⟨128 + k.val, by omega⟩ rfl
    rw [el, er, e1, e2]
  · have e1 : val_main_v42 (F := Ideal) x0 x1 x2 (ix2 r ⟨256 + k.val, by omega⟩)
        = val_main_v17 (F := Ideal) x0 x2 (ix2 r k) :=
      cat3_trd _ _ _ _ r k _
    have e2 := slice2_axis0_apply 256 x7 h2 k j ⟨256 + k.val, by omega⟩ rfl
    rw [el, er, e1, e2]

end Cert.ReferenceIdeal.Bridge

end
-- ==== Proof.KernelValue.lean ====
/-
  The fused program's two results as functions of its arguments.

  The node result is the node region's output: the two-block row map of the node features and the scatter-mean of the
  message array, which is the edge region's first output: the two-block row map of the gathered source rows and the
  edge rows. The edge result is the edge region's second output: the three-block row map of the edge rows, the gathered
  source rows and the gathered target rows. Each row map over the cut weights is the plain program's dense layer
  (`Bridge`), and the scatter-mean and the gathers are the plain program's own terms, so the two results are the plain
  program's results of the same arguments.
-/
import proofs.«173192_j27144193311129_1_alg».proof.Proof.Region0
import proofs.«173192_j27144193311129_1_alg».proof.Proof.Region1
import proofs.«173192_j27144193311129_1_alg».proof.Proof.HostChain
import proofs.«173192_j27144193311129_1_alg».proof.Proof.Bridge

set_option maxRecDepth 16384

noncomputable section

namespace Cert.KernelIdeal.Value

open Cert.KernelIdeal Cert.KernelIdeal.Gen
open Idealize.ShloMosaic Idealize.ShloMosaic.TcCoe
open Idealize.SL Idealize.SL.Sem

variable (m : (ℓ : Loc nD τ sig) → Buf (Elt Ideal) ℓ) (ρ : Dev nD → PrngReg)

/-- The message array the edge region leaves is the plain program's message array. -/
theorem msg_eq (c : Dev nD) :
    V2 m ρ c main_v25_0 = Cert.ReferenceIdeal.Read.val_main_v23 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  have h : V2 m ρ c main_v25_0 = (dat0 (V1 m ρ) c).arrAt 10 cfg0.N := W2_arr m ρ c 10
  rw [h, Region0.arr10]
  show Spec.lin2 (V1 m ρ c main_v10) (V1 m ρ c main_arg1) (V1 m ρ c main_v18) (V1 m ρ c main_v19) (V1 m ρ c main_v23) = _
  rw [Host.V1_v10, Host.V1_arg1, Host.V1_v18, Host.V1_v19, Host.V1_v23]
  exact Cert.ReferenceIdeal.Bridge.msg_eq _ _ _ _ _ _ _ _

/-- THE NODE RESULT is the plain program's. -/
theorem hnew_eq (c : Dev nD) :
    V4 m ρ c main_v41 = Cert.ReferenceIdeal.Read.val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have h : V4 m ρ c main_v41 = (dat1 (V3 m ρ) c).arrAt 5 cfg1.N := W4_arr m ρ c 5
  rw [h, Region1.arr5]
  show Spec.lin2 (V3 m ρ c main_arg0) (V3 m ρ c main_v37) (V3 m ρ c main_v38) (V3 m ρ c main_v39) (V3 m ρ c main_v40) = _
  rw [Host.V3_arg0, Host.V3_v37, Host.V3_v38, Host.V3_v39, Host.V3_v40, msg_eq, ← Cert.ReferenceIdeal.Terms.v35_eq]
  exact Cert.ReferenceIdeal.Bridge.hnew_eq _ _ _ _ _ _ _ _ _ _

/-- THE EDGE RESULT is the plain program's. -/
theorem enew_eq (c : Dev nD) :
    V4 m ρ c main_v25_1 = Cert.ReferenceIdeal.Read.val_main_v47 (F := Ideal) (m ((c : Thread nD τ).loc main_arg0)) (m ((c : Thread nD τ).loc main_arg1)) (m ((c : Thread nD τ).loc main_arg2)) (m ((c : Thread nD τ).loc main_arg7)) (m ((c : Thread nD τ).loc main_arg8)) := by
  have h : V2 m ρ c main_v25_1 = (dat0 (V1 m ρ) c).arrAt 11 cfg0.N := W2_arr m ρ c 11
  rw [Host.V4_v25_1, h, Region0.arr11]
  show Spec.lin3 (V1 m ρ c main_arg1) (V1 m ρ c main_v10) (V1 m ρ c main_v17) (V1 m ρ c main_v20) (V1 m ρ c main_v21) (V1 m ρ c main_v22) (V1 m ρ c main_v24) = _
  rw [Host.V1_arg1, Host.V1_v10, Host.V1_v17, Host.V1_v20, Host.V1_v21, Host.V1_v22, Host.V1_v24]
  exact Cert.ReferenceIdeal.Bridge.enew_eq _ _ _ _ _ _ _ _ _

end Cert.KernelIdeal.Value

end
-- ==== Proof.lean ====
/-
  One message-passing step of a graph network, fused against plain.

  Both programs gather, for every edge, the features of its source and of its target node; form per-edge messages
  `relu ([h_src | e] · P + b_P)`; average the messages of the edges that point at each node; and return new node
  features `relu ([h | mean] · Q + b_Q)` and new edge features `relu ([e | h_src | h_tgt] · W + b_W)`. The plain
  program concatenates the row blocks and multiplies by the stacked weights; the fused one cuts the weights into their
  128-row blocks, multiplies each row block with its own weight block inside two pipelined kernels (rounding the
  operands to sixteen bits on the way, which at the ideal values is the identity) and adds the products. At the ideal
  values the two are equal because a sum over `128 + 128` (or `128 + 128 + 128`) terms is the sum of the sums over its
  runs: only associativity and commutativity of addition on the extended reals, so the finiteness of the inputs is
  never used. The gathers and the scatter-mean are the same host operations in both programs and are carried as they are.

  The modules: `Spec` (the row maps and the split of the sum), `BlockOps` (one grid point's arithmetic is a row map of
  its blocks), `Region0` / `Region1` (each region's result arrays are row maps of the whole operand arrays),
  `HostChain` (what each region finds, as functions of the arguments), `Bridge` (the plain program's dense layers are the
  same row maps), `KernelValue` (the fused program's two results are the plain program's), `KernelRun` (the fused
  program's run with its two result arrays named). `preserves` holds trivially: the idealization rewrote nothing.
-/
import proofs.«173192_j27144193311129_1_alg».proof.Defs
import proofs.«173192_j27144193311129_1_alg».proof.Proof.Gen.Kernel
import proofs.«173192_j27144193311129_1_alg».proof.Proof.Gen.Kernel.Skeleton
import proofs.«173192_j27144193311129_1_alg».proof.Proof.Gen.Kernel.Launch
import proofs.«173192_j27144193311129_1_alg».proof.Proof.Gen.Kernel.Points
import proofs.«173192_j27144193311129_1_alg».proof.Proof.Gen.Kernel.Frame
import proofs.«173192_j27144193311129_1_alg».proof.Proof.Gen.KernelIdeal
import proofs.«173192_j27144193311129_1_alg».proof.Proof.Gen.KernelIdeal.Skeleton
import proofs.«173192_j27144193311129_1_alg».proof.Proof.Gen.KernelIdeal.Launch
import proofs.«173192_j27144193311129_1_alg».proof.Proof.Gen.KernelIdeal.Points
import proofs.«173192_j27144193311129_1_alg».proof.Proof.Gen.KernelIdeal.Frame
import proofs.«173192_j27144193311129_1_alg».proof.Proof.Gen.ReferenceIdeal
import proofs.«173192_j27144193311129_1_alg».proof.Proof.Gen.Pre_finite_inputs
import proofs.«173192_j27144193311129_1_alg».proof.Proof.Gen.ReferenceIdeal.Run
import proofs.«173192_j27144193311129_1_alg».proof.Proof.Gen.ReferenceIdeal.Read
import proofs.«173192_j27144193311129_1_alg».proof.Proof.KernelRun
import proofs.«173192_j27144193311129_1_alg».proof.Proof.KernelValue
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

/-- The plain program's frame is its run with the two results dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2.2)
    (Cert.ReferenceIdeal.Value.run (F := Ideal) m ρ)

/-- From memories that agree on the arguments both programs end with the plain program's two results of those
    arguments: the fused one by `KernelValue`, the plain one by its own run. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.ReferenceIdeal.Read.val_main_v41 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.ReferenceIdeal.Read.val_main_v47 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Value.hnew_eq m ρ c), (h c).2.1.trans (Cert.KernelIdeal.Value.enew_eq m ρ c), (h c).2.2⟩)
      (Cert.KernelIdeal.Named.run_named (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · rw [Cert.ReferenceIdeal.Read.val_main_v41_eq, (hagree c).1, (hagree c).2.1, (hagree c).2.2.1, (hagree c).2.2.2.1, (hagree c).2.2.2.2.1, (hagree c).2.2.2.2.2.1, (hagree c).2.2.2.2.2.2.1]
    · rw [Cert.ReferenceIdeal.Read.val_main_v47_eq, (hagree c).1, (hagree c).2.1, (hagree c).2.2.1, (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
